-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S2x1600000 : Shape := ⟨2, ![2, 1600000]⟩
abbrev S2x500000 : Shape := ⟨2, ![2, 500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x8 .f32) (main_arg10 : FVec F S8 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8 .f32 := Host.absf main_arg9
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg4 : FVec F S128x128 .f32) (main_arg5 : FVec F S128 .f32) (main_arg6 : FVec F S128x128 .f32) (main_arg7 : FVec F S256x128 .f32) (main_arg8 : FVec F S128 .f32) (main_arg9 : FVec F S128x8 .f32) (main_arg10 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S256x128 .f32) (main_arg8 : FVec F S128 .f32) (main_arg9 : FVec F S128x8 .f32) (main_arg10 : FVec F S8 .f32) (main_arg11 : IVec S2x1600000 32) (main_arg12 : IVec S2x500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x8 : Shape := ⟨2, ![1, 8]⟩
abbrev S500000x8 : Shape := ⟨2, ![500000, 8]⟩
abbrev S5000x8 : Shape := ⟨2, ![5000, 8]⟩

abbrev nBuf : Space → Nat
  | .hbm => 92
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S128, .f32⟩
  | .hbm, ⟨9, _⟩ => ⟨S128x8, .f32⟩
  | .hbm, ⟨10, _⟩ => ⟨S8, .f32⟩
  | .hbm, ⟨11, _⟩ => ⟨S2x1600000, .i32⟩
  | .hbm, ⟨12, _⟩ => ⟨S2x500000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x500000, .i32⟩
  | .hbm, ⟨66, _⟩ => ⟨S500000, .i32⟩
  | .hbm, ⟨67, _⟩ => ⟨S1x500000, .i32⟩
  | .hbm, ⟨68, _⟩ => ⟨S500000, .i32⟩
  | .hbm, ⟨69, _⟩ => ⟨S_, .i32⟩
  | .hbm, ⟨70, _⟩ => ⟨S500000, .i32⟩
  | .hbm, ⟨71, _⟩ => ⟨S500000, .i1⟩
  | .hbm, ⟨72, _⟩ => ⟨S_, .i32⟩
  | .hbm, ⟨73, _⟩ => ⟨S500000, .i32⟩
  | .hbm, ⟨74, _⟩ => ⟨S500000, .i32⟩
  | .hbm, ⟨75, _⟩ => ⟨S500000, .i32⟩
  | .hbm, ⟨76, _⟩ => ⟨S500000x1, .i32⟩
  | .hbm, ⟨77, _⟩ => ⟨S500000x128, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000x128, .f32⟩
  | .hbm, ⟨87, _⟩ => ⟨S128x128, .f32⟩
  | .hbm, ⟨88, _⟩ => ⟨S128x128, .f32⟩
  | .hbm, ⟨89, _⟩ => ⟨S1x128, .f32⟩
  | .hbm, ⟨90, _⟩ => ⟨S1x8, .f32⟩
  | .hbm, ⟨91, _⟩ => ⟨S500000x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x8, .f32⟩
  | .local _ .vmem, ⟨26, _⟩ => ⟨S1x8, .f32⟩
  | .local _ .vmem, ⟨27, _⟩ => ⟨S5000x8, .f32⟩
  | .local _ .vmem, ⟨28, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S8_S1x8 : S8.ShapeCasts S1x8
  shapeCasts_S128x128_S128x128 : S128x128.ShapeCasts S128x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x8.size a ≤ S128x8.size a
  hwx2_5 : ∀ i : grid2.Coords, EltTy.bits .f32 = 32 ∨ (Rect.block (s := S128x8) S128x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x8.size a ≤ S1x8.size a
  hwx2_6 : ∀ i : grid2.Coords, EltTy.bits .f32 = 32 ∨ (Rect.block (s := S1x8) S1x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x8.size a ≤ S500000x8.size a
  hwx2_7 : ∀ i : grid2.Coords, EltTy.bits .f32 = 32 ∨ (Rect.block (s := S500000x8) S5000x8.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S5000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S500000x8 : Shape := ⟨2, ![500000, 8]⟩
abbrev S1x8 : Shape := ⟨2, ![1, 8]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S128, .f32⟩
  | .hbm, ⟨9, _⟩ => ⟨S128x8, .f32⟩
  | .hbm, ⟨10, _⟩ => ⟨S8, .f32⟩
  | .hbm, ⟨11, _⟩ => ⟨S2x1600000, .i32⟩
  | .hbm, ⟨12, _⟩ => ⟨S2x500000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S1x500000, .i32⟩
  | .hbm, ⟨86, _⟩ => ⟨S500000, .i32⟩
  | .hbm, ⟨87, _⟩ => ⟨S1x500000, .i32⟩
  | .hbm, ⟨88, _⟩ => ⟨S500000, .i32⟩
  | .hbm, ⟨89, _⟩ => ⟨S_, .i32⟩
  | .hbm, ⟨90, _⟩ => ⟨S500000, .i32⟩
  | .hbm, ⟨91, _⟩ => ⟨S500000, .i1⟩
  | .hbm, ⟨92, _⟩ => ⟨S_, .i32⟩
  | .hbm, ⟨93, _⟩ => ⟨S500000, .i32⟩
  | .hbm, ⟨94, _⟩ => ⟨S500000, .i32⟩
  | .hbm, ⟨95, _⟩ => ⟨S500000, .i32⟩
  | .hbm, ⟨96, _⟩ => ⟨S500000x1, .i32⟩
  | .hbm, ⟨97, _⟩ => ⟨S500000x128, .f32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x128, .f32⟩
  | .hbm, ⟨107, _⟩ => ⟨S500000x256, .f32⟩
  | .hbm, ⟨108, _⟩ => ⟨S500000x128, .f32⟩
  | .hbm, ⟨109, _⟩ => ⟨S1x128, .f32⟩
  | .hbm, ⟨110, _⟩ => ⟨S500000x128, .f32⟩
  | .hbm, ⟨111, _⟩ => ⟨S500000x128, .f32⟩
  | .hbm, ⟨112, _⟩ => ⟨S_, .f32⟩
  | .hbm, ⟨113, _⟩ => ⟨S500000x128, .f32⟩
  | .hbm, ⟨114, _⟩ => ⟨S500000x128, .f32⟩
  | .hbm, ⟨115, _⟩ => ⟨S500000x8, .f32⟩
  | .hbm, ⟨116, _⟩ => ⟨S1x8, .f32⟩
  | .hbm, ⟨117, _⟩ => ⟨S500000x8, .f32⟩
  | .hbm, ⟨118, _⟩ => ⟨S500000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_c_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_call2_cst : Ref sig .tc := ⟨.hbm, 112, rfl⟩
abbrev main_call2_v0 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x8_S500000x8_1_0_0_1_n_n_wf : DotDims.WF S500000x128 S128x8 S500000x8 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf

class Facts : Prop extends Facts₀ where

variable [Facts]
-- ==== Proof.Spec.lean ====
/-
  The two dense stages of a mean-aggregating graph network followed by an edge classifier, as functions of whole arrays
  over the extended reals, entry by entry (nothing here depends on a program; any sizes).

  A layer takes the mean of the neighbours' features mean : [A, K], the nodes' own features x : [A, K], two weight
  matrices wl, wr : [K, C] and a one-row bias b : [1, C]; its entry (p, q) is

      max( ( sum_k mean[p, k] * wl[k, q]  +  sum_k x[p, k] * wr[k, q] )  +  b[0, q],  0 ).

  The edge classifier takes the features of an edge's two end points xs, xd : [A, K], the two halves wa, wb : [K, H] of
  the first weight matrix, a bias row b1 : [1, H], the second weight matrix w2 : [H, C] and its bias row b2 : [1, C];
  its entry (p, q) is

      sum_j max( ( sum_k xs[p, k] * wa[k, j]  +  sum_k xd[p, k] * wb[k, j] )  +  b1[0, j],  0 ) * w2[j, q]   +  b2[0, q].

  Both are row-local: entry (p, q) reads row p of the row-indexed operands only, so a block of rows of the result is
  the same function of the same block of rows of the operands.
-/
import Mathlib.Algebra.BigOperators.Fin
import Idealize.ShloMosaic.Lib.ValueIdx
import Idealize.ShloMosaic.PureOps.Ideal.Laws

noncomputable section

namespace Cert.Spec

open Idealize.ShloMosaic Idealize.ShloMosaic.ValueIdx

/-- A matrix of extended reals. -/
abbrev Mat (A B : Nat) : Type := (⟨2, ![A, B]⟩ : Shape).Idx → EReal

variable {A K C H : Nat}

/-- The affine part of a layer at entry (p, q), before the rectifier. -/
def preAt (mean x : Mat A K) (wl wr : Mat K C) (b : Mat 1 C) (p : Fin A) (q : Fin C) : EReal :=
  (∑ k : Fin K, mean (ix2 p k) * wl (ix2 k q) + ∑ k : Fin K, x (ix2 p k) * wr (ix2 k q)) + b (ix2 (0 : Fin 1) q)

/-- A layer at entry (p, q). -/
def layerAt (mean x : Mat A K) (wl wr : Mat K C) (b : Mat 1 C) (p : Fin A) (q : Fin C) : EReal :=
  max (preAt mean x wl wr b p q) 0

/-- A layer, as an array. -/
def layer (mean x : Mat A K) (wl wr : Mat K C) (b : Mat 1 C) : Mat A C :=
  fun i => layerAt mean x wl wr b (i 0) (i 1)

theorem layer_apply (mean x : Mat A K) (wl wr : Mat K C) (b : Mat 1 C) (p : Fin A) (q : Fin C) :
    layer mean x wl wr b (ix2 p q) = layerAt mean x wl wr b p q := rfl

/-- Entry (p, q) of a layer reads row p of the means and of the features only. -/
theorem layerAt_congr {A' : Nat} (mean x : Mat A K) (mean' x' : Mat A' K) (wl wr : Mat K C) (b : Mat 1 C)
    (p : Fin A) (p' : Fin A') (q : Fin C)
    (em : ∀ k : Fin K, mean (ix2 p k) = mean' (ix2 p' k)) (ex : ∀ k : Fin K, x (ix2 p k) = x' (ix2 p' k)) :
    layerAt mean x wl wr b p q = layerAt mean' x' wl wr b p' q := by
  unfold layerAt preAt
  congr 3
  · exact Finset.sum_congr rfl fun k _ => by rw [em k]
  · exact Finset.sum_congr rfl fun k _ => by rw [ex k]

/-- The edge classifier at entry (p, q). -/
def edgeAt (xs xd : Mat A K) (wa wb : Mat K H) (b1 : Mat 1 H) (w2 : Mat H C) (b2 : Mat 1 C) (p : Fin A) (q : Fin C) : EReal :=
  (∑ j : Fin H, layerAt xs xd wa wb b1 p j * w2 (ix2 j q)) + b2 (ix2 (0 : Fin 1) q)

/-- The edge classifier, as an array. -/
def edge (xs xd : Mat A K) (wa wb : Mat K H) (b1 : Mat 1 H) (w2 : Mat H C) (b2 : Mat 1 C) : Mat A C :=
  fun i => edgeAt xs xd wa wb b1 w2 b2 (i 0) (i 1)

theorem edge_apply (xs xd : Mat A K) (wa wb : Mat K H) (b1 : Mat 1 H) (w2 : Mat H C) (b2 : Mat 1 C) (p : Fin A) (q : Fin C) :
    edge xs xd wa wb b1 w2 b2 (ix2 p q) = edgeAt xs xd wa wb b1 w2 b2 p q := rfl

/-- Entry (p, q) of the edge classifier reads row p of the two end points' features only. -/
theorem edgeAt_congr {A' : Nat} (xs xd : Mat A K) (xs' xd' : Mat A' K) (wa wb : Mat K H) (b1 : Mat 1 H) (w2 : Mat H C)
    (b2 : Mat 1 C) (p : Fin A) (p' : Fin A') (q : Fin C)
    (es : ∀ k : Fin K, xs (ix2 p k) = xs' (ix2 p' k)) (ed : ∀ k : Fin K, xd (ix2 p k) = xd' (ix2 p' k)) :
    edgeAt xs xd wa wb b1 w2 b2 p q = edgeAt xs' xd' wa wb b1 w2 b2 p' q := by
  unfold edgeAt
  congr 1
  exact Finset.sum_congr rfl fun j _ => by rw [layerAt_congr xs xd xs' xd' wa wb b1 p p' j es ed]

end Cert.Spec

end
-- ==== Proof.KHost.lean ====
/-
  The host side of the kernel's program as functions of whole arrays, at the ideal values.

  An edge list e : [2, E] gives a row of sources and a row of destinations. A source that reads negative is shifted up by
  the node count before the gather; the neighbour sums agg x e scatter-add the gathered rows of x at the destinations; the
  degrees deg e scatter-add ones; the program forms the reciprocal 1 / max(deg, 1) once and multiplies each row of the
  sums by its node's entry: the neighbours' mean. A dense layer (Spec.layer) combines the means with the features; the
  second layer does the same from the first layer's result; the edge classifier (Spec.edge) reads the second layer's
  rows at the two end points of each query edge, with the first weight matrix cut into its upper and lower halves.
-/
import proofs.«149534_j77025943486768_1_alg».proof.Proof.Gen.KernelIdeal.Frame
import proofs.«149534_j77025943486768_1_alg».proof.Proof.Spec
import Idealize.ShloMosaic.PureOps.Ideal

noncomputable section

namespace Cert.KernelIdeal.KHost

open Cert.KernelIdeal Cert.KernelIdeal.Gen
open Idealize.ShloMosaic Idealize.ShloMosaic.TcCoe

/-- An edge list [2, 1600000] of 32-bit words. -/
abbrev Edges : Type := (⟨S2x1600000, .i32⟩ : BufTy).Contents (Elt Ideal)
/-- A query list [2, 500000] of 32-bit words. -/
abbrev Queries : Type := (⟨S2x500000, .i32⟩ : BufTy).Contents (Elt Ideal)
/-- Node features [100000, 128]. -/
abbrev Nodes : Type := FVec Ideal S100000x128 .f32

/-- Row k of the edge list as a vector. -/
def edgeRow0 (e : Edges) : (⟨S1600000, .i32⟩ : BufTy).Contents (Elt Ideal) :=
  shapeCast S1600000 (extractStridedSlice S1x1600000 ![0, 0] e slices_S2x1600000_S1x1600000_0_0) shapeCasts_S1x1600000_S1600000
def edgeRow1 (e : Edges) : (⟨S1600000, .i32⟩ : BufTy).Contents (Elt Ideal) :=
  shapeCast S1600000 (extractStridedSlice S1x1600000 ![1, 0] e slices_S2x1600000_S1x1600000_1_0) shapeCasts_S1x1600000_S1600000

/-- The gather's index column: a source that reads negative counts from the end. -/
def wrapE (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destinations as an index column. -/
def dstCol (e : Edges) : (⟨S1600000x1, .i32⟩ : BufTy).Contents (Elt Ideal) :=
  broadcastInDim S1600000x1 ![0] bcast_S1600000_S1600000x1_0 (edgeRow1 e)

/-- The neighbour sums: the rows of x at the sources, added up at the destinations. -/
def agg (x : Nodes) (e : Edges) : Nodes :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 x (wrapE (edgeRow0 e)))

/-- The in-degrees: ones added up at the destinations. -/
def deg (e : Edges) : FVec Ideal S100000 .f32 :=
  Host.scatterAdd scatter_S100000_S1600000x1_S1600000_n_0_0_1
    (broadcastInDim S100000 ![] bcast_S_S100000 (constant S_ .f32 0x00000000#32)) (dstCol e)
    (broadcastInDim S1600000 ![] bcast_S_S1600000 (constant S_ .f32 0x3F800000#32))

/-- The reciprocal 1 / max(deg, 1), per node. -/
def inv (e : Edges) : FVec Ideal S100000 .f32 :=
  Host.divf (broadcastInDim S100000 ![] bcast_S_S100000 (constant S_ .f32 0x3F800000#32))
    (maximumf (deg e) (broadcastInDim S100000 ![] bcast_S_S100000 (constant S_ .f32 0x3F800000#32)))

/-- A per-node vector spread over the 128 columns. -/
def spread (v : FVec Ideal S100000 .f32) : Nodes :=
  broadcastInDim S100000x128 ![0, 1] bcast_S100000x1_S100000x128_0_1 (broadcastInDim S100000x1 ![0] bcast_S100000_S100000x1_0 v)

/-- The neighbours' mean as the program forms it: the sums times the reciprocal degrees. -/
def mean (x : Nodes) (e : Edges) : Nodes := mulf (agg x e) (spread (inv e))

/-- A bias vector laid out as one row. -/
def row128 (b : FVec Ideal S128 .f32) : FVec Ideal S1x128 .f32 := shapeCast S1x128 b shapeCasts_S128_S1x128
def row8 (b : FVec Ideal S8 .f32) : FVec Ideal S1x8 .f32 := shapeCast S1x8 b shapeCasts_S8_S1x8

/-- The first layer's result. -/
def layer0 (x0 : Nodes) (x1 : FVec Ideal S128x128 .f32) (x2 : FVec Ideal S128 .f32) (x3 : FVec Ideal S128x128 .f32) (e : Edges) : Nodes :=
  Cert.Spec.layer (mean x0 e) x0 x1 x3 (row128 x2)

/-- The second layer's result, from the first layer's result y. -/
def layer1 (y : Nodes) (x4 : FVec Ideal S128x128 .f32) (x5 : FVec Ideal S128 .f32) (x6 : FVec Ideal S128x128 .f32) (e : Edges) : Nodes :=
  Cert.Spec.layer (mean y e) y x4 x6 (row128 x5)

/-- Row k of the query list as a vector. -/
def queryRow0 (q : Queries) : (⟨S500000, .i32⟩ : BufTy).Contents (Elt Ideal) :=
  shapeCast S500000 (extractStridedSlice S1x500000 ![0, 0] q slices_S2x500000_S1x500000_0_0) shapeCasts_S1x500000_S500000
def queryRow1 (q : Queries) : (⟨S500000, .i32⟩ : BufTy).Contents (Elt Ideal) :=
  shapeCast S500000 (extractStridedSlice S1x500000 ![1, 0] q slices_S2x500000_S1x500000_1_0) shapeCasts_S1x500000_S500000

/-- The query gather's index column: an end point that reads negative counts from the end. -/
def wrapQ (s : (⟨S500000, .i32⟩ : BufTy).Contents (Elt Ideal)) : (⟨S500000x1, .i32⟩ : BufTy).Contents (Elt Ideal) :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 100000#32))) s)

/-- The rows of z at one end point of each query edge. -/
def ends (z : Nodes) (s : (⟨S500000, .i32⟩ : BufTy).Contents (Elt Ideal)) : FVec Ideal S500000x128 .f32 :=
  Host.gather gather_S100000x128_S500000x1_S500000x128_1_0_n_n_0_1_1128 z (wrapQ s)

/-- The program's result from the second layer's result z. -/
def out (z : Nodes) (x7 : FVec Ideal S256x128 .f32) (x8 : FVec Ideal S128 .f32) (x9 : FVec Ideal S128x8 .f32)
    (x10 : FVec Ideal S8 .f32) (q : Queries) : FVec Ideal S500000x8 .f32 :=
  Cert.Spec.edge (ends z (queryRow0 q)) (ends z (queryRow1 q))
    (extractStridedSlice S128x128 ![0, 0] x7 slices_S256x128_S128x128_0_0)
    (extractStridedSlice S128x128 ![128, 0] x7 slices_S256x128_S128x128_128_0)
    (row128 x8) x9 (row8 x10)

end Cert.KernelIdeal.KHost

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.Region0Value.lean ====
/-
  Region 0 of the kernel program (the first dense layer), read as a value: after the region the output array is the
  layer of the operand arrays, entry by entry,

      out[p, q] = max( ( sum_k mean[p, k] * wl[k, q]  +  sum_k x[p, k] * wr[k, q] )  +  b[0, q],  0 ).

  The region runs over 20 grid points; point t works on rows 5000 t … 5000 t + 4999 of the row-indexed operands (the
  neighbours' means and the features) and on the whole of each weight matrix and of the bias row. The layer is row-local,
  so what point t stores is rows 5000 t … 5000 t + 4999 of the layer of the whole arrays; the 20 row blocks tile the
  100000 rows, so the array ends holding the layer.
-/
import proofs.«149534_j77025943486768_1_alg».proof.Proof.Gen.KernelIdeal.Frame
import proofs.«149534_j77025943486768_1_alg».proof.Proof.Spec
import proofs.«149534_j77025943486768_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an entry -/

/-- The bias row broadcast down the rows, at entry (r, q), is the row's entry q. -/
theorem bias_apply (b : Vec Ideal S1x128 .f32) (r : Fin 5000) (q : Fin 128) :
    broadcastTo S5000x128 (shapeCast S1x128 b shapeCasts_S1x128_S1x128) broadcasts_S1x128_S5000x128 (ix2 r q)
      = b (ix2 (0 : Fin 1) q) := by
  rw [shapeCast_self]
  refine broadcastTo_apply b broadcasts_S1x128_S5000x128 (ix2 r q) (ix2 (0 : Fin 1) q) ?_
  intro a
  match a with
  | ⟨0, _⟩ => simp
  | ⟨1, _⟩ => rfl

/-- A block of rows times a weight matrix into a zero accumulator, at entry (r, q): the sum over the 128 products. -/
theorem mm_apply (lhs : FVec Ideal S5000x128 .bf16) (rhs : FVec Ideal S128x128 .bf16) (r : Fin 5000) (q : Fin 128) :
    matmul dot_S5000x128_S128x128_S5000x128_1_0_0_1_n_n none lhs rhs (constant (F := Ideal) S5000x128 .f32 0x00000000#32) (ix2 r q)
      = ∑ k : Fin 128, (lhs (ix2 r k) : EReal) * (rhs (ix2 k q) : EReal) :=
  Cert.Lib.Matmul.matmul_zero_apply (A := 5000) (K := 128) (C := 128) none lhs rhs r q

/-- The body's stored value at entry (r, q) of a block is the layer's entry (r, q) of the loaded blocks. -/
theorem pay_apply (xm xf : Vec Ideal S5000x128 .f32) (wl wr : Vec Ideal S128x128 .f32) (b : Vec Ideal S1x128 .f32)
    (r : Fin 5000) (q : Fin 128) :
    k0_pay1 (F := Ideal) xm xf wl wr b (ix2 r q) = Cert.Spec.layerAt xm xf wl wr b r q := by
  unfold k0_pay1
  rw [maximumf_apply, addf_apply, addf_apply, broadcast_apply, bias_apply, mm_apply, mm_apply, shapeCast_self]
  simp only [truncf_apply]
  show max _ (Ideal.ofBits .f32 0x00000000#32) = _
  rw [Ideal.ofBits_zero_f32]
  rfl

/-! ## The index maps, decided over the grid -/

/-- The row-indexed windows' block index is (t, 0), the weights' and the bias row's (0, 0); there are 20 points. -/
theorem idx_facts : ∀ t : Fin cfg0.N, t.val < 20
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every one of the 20 row blocks of the output is some point's. -/
theorem idx_onto : ∀ b : Fin 20, ∃ t : Fin cfg0.N, win0_5.index t (0 : Fin 2) = b.val ∧ win0_5.index t (1 : Fin 2) = 0 :=
  (by decide +kernel : ∀ b : Fin 20, ∃ t : Fin grid0.N, win0_5.index t (0 : Fin 2) = b.val ∧ win0_5.index t (1 : Fin 2) = 0)

/-! ## The windows' blocks at a point, read off the arrays -/

/-- Row r of point t's block of the neighbours' means is row 5000 t + r of the array. -/
theorem rows_mean (c : Dev nD) (t : Fin cfg0.N) (r : Fin 5000) (k : Fin 128) (h : 5000 * t.val + r.val < 100000) :
    (iblk0 V c 0 t : Vec Ideal S5000x128 .f32) (ix2 r k)
      = (V c main_v24 : S100000x128.Idx → Elt Ideal .f32) (ix2 ⟨5000 * t.val + r.val, h⟩ k) := by
  obtain ⟨-, e0, e1, -⟩ := idx_facts t
  show V c main_v24 (((cfg0.win 0).blk t).view.emb (ix2 r k)) = _
  refine congrArg (V c main_v24) ?_
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- Row r of point t's block of the features is row 5000 t + r of the array. -/
theorem rows_feat (c : Dev nD) (t : Fin cfg0.N) (r : Fin 5000) (k : Fin 128) (h : 5000 * t.val + r.val < 100000) :
    (iblk0 V c 1 t : Vec Ideal S5000x128 .f32) (ix2 r k)
      = (V c main_arg0 : S100000x128.Idx → Elt Ideal .f32) (ix2 ⟨5000 * t.val + r.val, h⟩ k) := by
  obtain ⟨-, -, -, e0, e1, -⟩ := idx_facts t
  show V c main_arg0 (((cfg0.win 1).blk t).view.emb (ix2 r k)) = _
  refine congrArg (V c main_arg0) ?_
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

/-- The left weight matrix's block at every point is the whole matrix. -/
theorem whole_wl (c : Dev nD) (t : Fin cfg0.N) :
    (iblk0 V c 2 t : Vec Ideal S128x128 .f32) = (V c main_arg1 : S128x128.Idx → Elt Ideal .f32) := by
  obtain ⟨-, -, -, -, -, e0, e1, -⟩ := idx_facts t
  funext y
  show V c main_arg1 (((cfg0.win 2).blk t).view.emb y) = _
  refine congrArg (V c main_arg1) ?_
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the whole row. -/
theorem whole_bias (c : Dev nD) (t : Fin cfg0.N) :
    (iblk0 V c 3 t : Vec Ideal S1x128 .f32) = (V c main_v25 : S1x128.Idx → Elt Ideal .f32) := by
  obtain ⟨-, -, -, -, -, -, -, e0, e1, -⟩ := idx_facts t
  funext y
  show V c main_v25 (((cfg0.win 3).blk t).view.emb y) = _
  refine congrArg (V c main_v25) ?_
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right weight matrix's block at every point is the whole matrix. -/
theorem whole_wr (c : Dev nD) (t : Fin cfg0.N) :
    (iblk0 V c 4 t : Vec Ideal S128x128 .f32) = (V c main_arg3 : S128x128.Idx → Elt Ideal .f32) := by
  obtain ⟨-, -, -, -, -, -, -, -, -, e0, e1, -⟩ := idx_facts t
  funext y
  show V c main_arg3 (((cfg0.win 4).blk t).view.emb y) = _
  refine congrArg (V c main_arg3) ?_
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Entry (r, q) of point t's output block sits at (5000 t + r, q) of the output array. -/
theorem out_emb (t : Fin cfg0.N) (r : Fin 5000) (q : Fin 128) (h : 5000 * t.val + r.val < 100000) :
    ((cfg0.win 5).blk t).view.emb (ix2 r q) = (ix2 ⟨5000 * t.val + r.val, h⟩ q : S100000x128.Idx) := by
  obtain ⟨-, -, -, -, -, -, -, -, -, -, -, e0, e1⟩ := idx_facts t
  funext a
  apply Fin.ext
  match a with
  | ⟨0, _⟩ => show win0_5.index t (0 : Fin 2) * 5000 + 1 * r.val = 5000 * t.val + r.val; rw [e0]; omega
  | ⟨1, _⟩ => show win0_5.index t (1 : Fin 2) * 128 + 1 * q.val = q.val; rw [e1]; omega

/-! ## What a point writes back -/

/-- What point t writes back is block t of the layer of the operand arrays as the region finds them. -/
theorem flushed_eq (c : Dev nD) (t : Fin cfg0.N) :
    (dat0 (F := Ideal) V c).flushed 5 t
      = ((cfg0.win 5).blk t).view.read (Elt Ideal)
          (Cert.Spec.layer (V c main_v24) (V c main_arg0) (V c main_arg1) (V c main_arg3) (V c main_v25)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have hN : t.val < 20 := (idx_facts t).1
  have hr : 5000 * t.val + r.val < 100000 := by have := r.isLt; omega
  show k0_pay1 (F := Ideal) (iblk0 V c 0 t) (iblk0 V c 1 t) (iblk0 V c 2 t) (iblk0 V c 4 t) (iblk0 V c 3 t) (ix2 r q)
    = Cert.Spec.layer (V c main_v24) (V c main_arg0) (V c main_arg1) (V c main_arg3) (V c main_v25)
        (((cfg0.win 5).blk t).view.emb (ix2 r q))
  rw [out_emb t r q hr, pay_apply, Cert.Spec.layer_apply, whole_wl V c t, whole_wr V c t, whole_bias V c t]
  exact Cert.Spec.layerAt_congr _ _ _ _ _ _ _ r ⟨5000 * t.val + r.val, hr⟩ q
    (fun k => rows_mean V c t r k hr) (fun k => rows_feat V c t r k hr)

/-! ## The blocks tile the array -/

/-- An index of the output array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row p of the output array lies in the block of point p / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht0, ht1⟩ := idx_onto ⟨(i 0).val / 5000, by omega⟩
  have q0 : win0_5.index t (0 : Fin 2) = (i 0).val / 5000 := ht0
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-! ## The array after the region -/

/-- After region 0 the output array is the layer of the operand arrays as the region finds them. -/
theorem final (c : Dev nD) :
    (dat0 (F := Ideal) V c).arrAt 5 cfg0.N
      = Cert.Spec.layer (V c main_v24) (V c main_arg0) (V c main_arg1) (V c main_arg3) (V c main_v25) :=
  (dat0 (F := Ideal) V c).arrAt_eq_of_cover 5 _ (fun t _ => flushed_eq V c t) cover

end Cert.KernelIdeal.Region0

end
-- ==== Proof.Region1Value.lean ====
/-
  Region 1 of the kernel program (the second dense layer), read as a value: after the region the output array is the
  layer of the operand arrays, entry by entry,

      out[p, q] = max( ( sum_k mean[p, k] * wl[k, q]  +  sum_k x[p, k] * wr[k, q] )  +  b[0, q],  0 ),

  where x is the first layer's output and mean the neighbours' means of it.

  The region runs over 20 grid points; point t works on rows 5000 t … 5000 t + 4999 of the row-indexed operands (the
  neighbours' means and the features) and on the whole of each weight matrix and of the bias row. The layer is row-local,
  so what point t stores is rows 5000 t … 5000 t + 4999 of the layer of the whole arrays; the 20 row blocks tile the
  100000 rows, so the array ends holding the layer.
-/
import proofs.«149534_j77025943486768_1_alg».proof.Proof.Gen.KernelIdeal.Frame
import proofs.«149534_j77025943486768_1_alg».proof.Proof.Spec
import proofs.«149534_j77025943486768_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an entry -/

/-- The bias row broadcast down the rows, at entry (r, q), is the row's entry q. -/
theorem bias_apply (b : Vec Ideal S1x128 .f32) (r : Fin 5000) (q : Fin 128) :
    broadcastTo S5000x128 (shapeCast S1x128 b shapeCasts_S1x128_S1x128) broadcasts_S1x128_S5000x128 (ix2 r q)
      = b (ix2 (0 : Fin 1) q) := by
  rw [shapeCast_self]
  refine broadcastTo_apply b broadcasts_S1x128_S5000x128 (ix2 r q) (ix2 (0 : Fin 1) q) ?_
  intro a
  match a with
  | ⟨0, _⟩ => simp
  | ⟨1, _⟩ => rfl

/-- A block of rows times a weight matrix into a zero accumulator, at entry (r, q): the sum over the 128 products. -/
theorem mm_apply (lhs : FVec Ideal S5000x128 .bf16) (rhs : FVec Ideal S128x128 .bf16) (r : Fin 5000) (q : Fin 128) :
    matmul dot_S5000x128_S128x128_S5000x128_1_0_0_1_n_n none lhs rhs (constant (F := Ideal) S5000x128 .f32 0x00000000#32) (ix2 r q)
      = ∑ k : Fin 128, (lhs (ix2 r k) : EReal) * (rhs (ix2 k q) : EReal) :=
  Cert.Lib.Matmul.matmul_zero_apply (A := 5000) (K := 128) (C := 128) none lhs rhs r q

/-- The body's stored value at entry (r, q) of a block is the layer's entry (r, q) of the loaded blocks. -/
theorem pay_apply (xm xf : Vec Ideal S5000x128 .f32) (wl wr : Vec Ideal S128x128 .f32) (b : Vec Ideal S1x128 .f32)
    (r : Fin 5000) (q : Fin 128) :
    k1_pay1 (F := Ideal) xm xf wl wr b (ix2 r q) = Cert.Spec.layerAt xm xf wl wr b r q := by
  unfold k1_pay1
  rw [maximumf_apply, addf_apply, addf_apply, broadcast_apply, bias_apply, mm_apply, mm_apply, shapeCast_self, shapeCast_self]
  simp only [truncf_apply]
  show max _ (Ideal.ofBits .f32 0x00000000#32) = _
  rw [Ideal.ofBits_zero_f32]
  rfl

/-! ## The index maps, decided over the grid -/

/-- The row-indexed windows' block index is (t, 0), the weights' and the bias row's (0, 0); there are 20 points. -/
theorem idx_facts : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every one of the 20 row blocks of the output is some point's. -/
theorem idx_onto : ∀ b : Fin 20, ∃ t : Fin cfg1.N, win1_5.index t (0 : Fin 2) = b.val ∧ win1_5.index t (1 : Fin 2) = 0 :=
  (by decide +kernel : ∀ b : Fin 20, ∃ t : Fin grid1.N, win1_5.index t (0 : Fin 2) = b.val ∧ win1_5.index t (1 : Fin 2) = 0)

/-! ## The windows' blocks at a point, read off the arrays -/

/-- Row r of point t's block of the neighbours' means is row 5000 t + r of the array. -/
theorem rows_mean (c : Dev nD) (t : Fin cfg1.N) (r : Fin 5000) (k : Fin 128) (h : 5000 * t.val + r.val < 100000) :
    (iblk1 V c 0 t : Vec Ideal S5000x128 .f32) (ix2 r k)
      = (V c main_v39 : S100000x128.Idx → Elt Ideal .f32) (ix2 ⟨5000 * t.val + r.val, h⟩ k) := by
  obtain ⟨-, e0, e1, -⟩ := idx_facts t
  show V c main_v39 (((cfg1.win 0).blk t).view.emb (ix2 r k)) = _
  refine congrArg (V c main_v39) ?_
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

/-- Row r of point t's block of the features is row 5000 t + r of the array. -/
theorem rows_feat (c : Dev nD) (t : Fin cfg1.N) (r : Fin 5000) (k : Fin 128) (h : 5000 * t.val + r.val < 100000) :
    (iblk1 V c 1 t : Vec Ideal S5000x128 .f32) (ix2 r k)
      = (V c main_v26 : S100000x128.Idx → Elt Ideal .f32) (ix2 ⟨5000 * t.val + r.val, h⟩ k) := by
  obtain ⟨-, -, -, e0, e1, -⟩ := idx_facts t
  show V c main_v26 (((cfg1.win 1).blk t).view.emb (ix2 r k)) = _
  refine congrArg (V c main_v26) ?_
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

/-- The left weight matrix's block at every point is the whole matrix. -/
theorem whole_wl (c : Dev nD) (t : Fin cfg1.N) :
    (iblk1 V c 2 t : Vec Ideal S128x128 .f32) = (V c main_arg4 : S128x128.Idx → Elt Ideal .f32) := by
  obtain ⟨-, -, -, -, -, e0, e1, -⟩ := idx_facts t
  funext y
  show V c main_arg4 (((cfg1.win 2).blk t).view.emb y) = _
  refine congrArg (V c main_arg4) ?_
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row's block at every point is the whole row. -/
theorem whole_bias (c : Dev nD) (t : Fin cfg1.N) :
    (iblk1 V c 3 t : Vec Ideal S1x128 .f32) = (V c main_v40 : S1x128.Idx → Elt Ideal .f32) := by
  obtain ⟨-, -, -, -, -, -, -, e0, e1, -⟩ := idx_facts t
  funext y
  show V c main_v40 (((cfg1.win 3).blk t).view.emb y) = _
  refine congrArg (V c main_v40) ?_
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The right weight matrix's block at every point is the whole matrix. -/
theorem whole_wr (c : Dev nD) (t : Fin cfg1.N) :
    (iblk1 V c 4 t : Vec Ideal S128x128 .f32) = (V c main_arg6 : S128x128.Idx → Elt Ideal .f32) := by
  obtain ⟨-, -, -, -, -, -, -, -, -, e0, e1, -⟩ := idx_facts t
  funext y
  show V c main_arg6 (((cfg1.win 4).blk t).view.emb y) = _
  refine congrArg (V c main_arg6) ?_
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Entry (r, q) of point t's output block sits at (5000 t + r, q) of the output array. -/
theorem out_emb (t : Fin cfg1.N) (r : Fin 5000) (q : Fin 128) (h : 5000 * t.val + r.val < 100000) :
    ((cfg1.win 5).blk t).view.emb (ix2 r q) = (ix2 ⟨5000 * t.val + r.val, h⟩ q : S100000x128.Idx) := by
  obtain ⟨-, -, -, -, -, -, -, -, -, -, -, e0, e1⟩ := idx_facts t
  funext a
  apply Fin.ext
  match a with
  | ⟨0, _⟩ => show win1_5.index t (0 : Fin 2) * 5000 + 1 * r.val = 5000 * t.val + r.val; rw [e0]; omega
  | ⟨1, _⟩ => show win1_5.index t (1 : Fin 2) * 128 + 1 * q.val = q.val; rw [e1]; omega

/-! ## What a point writes back -/

/-- What point t writes back is block t of the layer of the operand arrays as the region finds them. -/
theorem flushed_eq (c : Dev nD) (t : Fin cfg1.N) :
    (dat1 (F := Ideal) V c).flushed 5 t
      = ((cfg1.win 5).blk t).view.read (Elt Ideal)
          (Cert.Spec.layer (V c main_v39) (V c main_v26) (V c main_arg4) (V c main_arg6) (V c main_v40)) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  have hN : t.val < 20 := (idx_facts t).1
  have hr : 5000 * t.val + r.val < 100000 := by have := r.isLt; omega
  show k1_pay1 (F := Ideal) (iblk1 V c 0 t) (iblk1 V c 1 t) (iblk1 V c 2 t) (iblk1 V c 4 t) (iblk1 V c 3 t) (ix2 r q)
    = Cert.Spec.layer (V c main_v39) (V c main_v26) (V c main_arg4) (V c main_arg6) (V c main_v40)
        (((cfg1.win 5).blk t).view.emb (ix2 r q))
  rw [out_emb t r q hr, pay_apply, Cert.Spec.layer_apply, whole_wl V c t, whole_wr V c t, whole_bias V c t]
  exact Cert.Spec.layerAt_congr _ _ _ _ _ _ _ r ⟨5000 * t.val + r.val, hr⟩ q
    (fun k => rows_mean V c t r k hr) (fun k => rows_feat V c t r k hr)

/-! ## The blocks tile the array -/

/-- An index of the output array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Row p of the output array lies in the block of point p / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht0, ht1⟩ := idx_onto ⟨(i 0).val / 5000, by omega⟩
  have q0 : win1_5.index t (0 : Fin 2) = (i 0).val / 5000 := ht0
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-! ## The array after the region -/

/-- After region 1 the output array is the layer of the operand arrays as the region finds them. -/
theorem final (c : Dev nD) :
    (dat1 (F := Ideal) V c).arrAt 5 cfg1.N
      = Cert.Spec.layer (V c main_v39) (V c main_v26) (V c main_arg4) (V c main_arg6) (V c main_v40) :=
  (dat1 (F := Ideal) V c).arrAt_eq_of_cover 5 _ (fun t _ => flushed_eq V c t) cover

end Cert.KernelIdeal.Region1

end
-- ==== Proof.Region2Value.lean ====
/-
  The third region of the program: the edge scorer, a two-layer perceptron applied row by row.

  The region walks 100 points; point t holds rows 5000·t … 5000·t + 4999 of the two end-point feature arrays
  (500000 × 128 each) and of the output (500000 × 8), and the whole of the two 128 × 128 weights, the 1 × 128 bias row,
  the 128 × 8 output weight and the 1 × 8 output bias row. On its block a point computes
      h = max ((xs · wa + xd · wb) + b1, 0),   result = h · w2 + b2,
  the bias rows repeated down the rows. At the ideal values the narrowing to a shorter float format is the identity and
  a product accumulated into zero is the sum over the contracted axis, so entry (r, q) of the block's result is the
  row-local function `Spec.edgeAt` of row r of the two feature blocks. Row r of block t is row 5000·t + r of the
  array, every row p lies in the block of point p / 5000, and every point writes its block back: after the region
  the output array is `Spec.edge` of the arrays the region found.
-/
import proofs.«149534_j77025943486768_1_alg».proof.Proof.Gen.KernelIdeal.Frame
import proofs.«149534_j77025943486768_1_alg».proof.Proof.Spec
import proofs.«149534_j77025943486768_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A one-row array [1, B] broadcast down A rows holds, at (p, q), the row's entry q. -/
theorem rowBcast_apply {α : Type} {A B : Nat} (x : (⟨2, ![1, B]⟩ : Shape).Idx → α)
    (h : (⟨2, ![1, B]⟩ : Shape).Broadcasts ⟨2, ![A, B]⟩) (p : Fin A) (q : Fin B) :
    broadcastTo ⟨2, ![A, B]⟩ x h (ix2 p q) = x (ix2 (0 : Fin 1) q) := by
  refine broadcastTo_apply x h (ix2 p q) (ix2 (0 : Fin 1) q) ?_
  intro a
  match a with
  | ⟨0, _⟩ => simp
  | ⟨1, _⟩ =>
    show q.val = if B = 1 then 0 else q.val
    split
    · have := q.isLt; omega
    · rfl

/-- The first layer's two products contract axis 1 of a [5000, 128] block with axis 0 of a [128, 128] weight. -/
theorem dot1_eq : dot_S5000x128_S128x128_S5000x128_1_0_0_1_n_n = DotDims.plain 5000 128 128 := rfl
/-- The second layer's product contracts axis 1 of the [5000, 128] hidden block with axis 0 of the [128, 8] weight. -/
theorem dot2_eq : dot_S5000x128_S128x8_S5000x8_1_0_0_1_n_n = DotDims.plain 5000 128 8 := rfl

/-- The zero word is the real zero. -/
theorem zero_word : (FloatOps.ofBits (F := Ideal) .f32 0x00000000#32) = (0 : EReal) := Ideal.ofBits_zero_f32

/-- THE BODY'S VALUE AT AN ENTRY. With the narrowing to bf16 the identity on the ideal values, each matrix-unit product
    into a zero accumulator a sum over the contracted axis, the bias rows broadcast down the rows and the maximum taken
    against a zero splat, entry (r, q) of what the body stores is
    (∑ j, max ((∑ k, xs[r,k]·wa[k,j] + ∑ k, xd[r,k]·wb[k,j]) + b1[0,j]) 0 · w2[j,q]) + b2[0,q]. -/
theorem pay_apply (xs xd : FVec Ideal S5000x128 .f32) (wa wb : FVec Ideal S128x128 .f32) (b1 : FVec Ideal S1x128 .f32)
    (w2 : FVec Ideal S128x8 .f32) (b2 : FVec Ideal S1x8 .f32) (r : Fin 5000) (q : Fin 8) :
    k2_pay1 (F := Ideal) xs xd wa wb b1 w2 b2 (ix2 r q) = Cert.Spec.edgeAt xs xd wa wb b1 w2 b2 r q := by
  unfold k2_pay1
  simp only [shapeCast_self, dot1_eq, dot2_eq]
  simp only [addf_apply, maximumf_apply, truncf_apply, broadcast_apply, rowBcast_apply,
    Cert.Lib.Matmul.matmul_zero_apply, zero_word]
  rfl

variable (V : (c : Dev nD) → (b : Ref sig .tc) → Buf (Elt Ideal) ((c : Thread nD τ).loc b))

/-! ## Where each window's block sits -/

theorem origin_zero : (![0, 0] : Fin 2 → Nat) = fun _ => 0 := funext fun a => by fin_cases a <;> rfl

/-- The row-indexed windows (the two end-point feature arrays and the output) sit at block row `t`, block column 0. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

/-- The weight and bias windows sit at block (0, 0) at every point. -/
theorem idx_whole : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row r of the first end points' block at point t is row 5000·t + r of the array. -/
theorem blk_xs (c : Dev nD) (t : Fin cfg2.N) (r : Fin 5000) (k : Fin 128) (h : 5000 * t.val + r.val < 500000) :
    iblk2 V c 0 t (ix2 r k) = V c main_v52 (ix2 ⟨5000 * t.val + r.val, h⟩ k) := by
  show V c main_v52 (((cfg2.win 0).blk t).view.emb (ix2 r k)) = _
  refine congrArg (V c main_v52) ?_
  obtain ⟨e0, e1, -⟩ := idx_rows t
  funext a; apply Fin.ext
  match a with
  | ⟨0, _⟩ => show win2_0.index t (0 : Fin 2) * 5000 + 1 * r.val = 5000 * t.val + r.val; omega
  | ⟨1, _⟩ => show win2_0.index t (1 : Fin 2) * 128 + 1 * k.val = k.val; omega

/-- Row r of the second end points' block at point t is row 5000·t + r of the array. -/
theorem blk_xd (c : Dev nD) (t : Fin cfg2.N) (r : Fin 5000) (k : Fin 128) (h : 5000 * t.val + r.val < 500000) :
    iblk2 V c 1 t (ix2 r k) = V c main_v59 (ix2 ⟨5000 * t.val + r.val, h⟩ k) := by
  show V c main_v59 (((cfg2.win 1).blk t).view.emb (ix2 r k)) = _
  refine congrArg (V c main_v59) ?_
  obtain ⟨-, -, e0, e1, -⟩ := idx_rows t
  funext a; apply Fin.ext
  match a with
  | ⟨0, _⟩ => show win2_1.index t (0 : Fin 2) * 5000 + 1 * r.val = 5000 * t.val + r.val; omega
  | ⟨1, _⟩ => show win2_1.index t (1 : Fin 2) * 128 + 1 * k.val = k.val; omega

/-- The first weight's block is the whole array at every point. -/
theorem blk_wa (c : Dev nD) (t : Fin cfg2.N) : iblk2 V c 2 t = V c main_v60 := by
  funext j
  show V c main_v60 (((cfg2.win 2).blk t).view.emb j) = V c main_v60 j
  refine congrArg (V c main_v60) ?_
  obtain ⟨e0, e1, -⟩ := idx_whole t
  funext a; apply Fin.ext
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- The second weight's block is the whole array at every point. -/
theorem blk_wb (c : Dev nD) (t : Fin cfg2.N) : iblk2 V c 3 t = V c main_v61 := by
  funext j
  show V c main_v61 (((cfg2.win 3).blk t).view.emb j) = V c main_v61 j
  refine congrArg (V c main_v61) ?_
  obtain ⟨-, -, e0, e1, -⟩ := idx_whole t
  funext a; apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- The first bias row's block is the whole array at every point. -/
theorem blk_b1 (c : Dev nD) (t : Fin cfg2.N) : iblk2 V c 4 t = V c main_v62 := by
  funext j
  show V c main_v62 (((cfg2.win 4).blk t).view.emb j) = V c main_v62 j
  refine congrArg (V c main_v62) ?_
  obtain ⟨-, -, -, -, e0, e1, -⟩ := idx_whole t
  funext a; apply Fin.ext
  match a with
  | ⟨0, _⟩ => show win2_4.index t (0 : Fin 2) * 1 + 1 * (j 0).val = (j 0).val; omega
  | ⟨1, _⟩ => show win2_4.index t (1 : Fin 2) * 128 + 1 * (j 1).val = (j 1).val; omega

/-- The output weight's block is the whole array at every point. -/
theorem blk_w2 (c : Dev nD) (t : Fin cfg2.N) : iblk2 V c 5 t = V c main_arg9 := by
  funext j
  show V c main_arg9 (((cfg2.win 5).blk t).view.emb j) = V c main_arg9 j
  refine congrArg (V c main_arg9) ?_
  obtain ⟨-, -, -, -, -, -, e0, e1, -⟩ := idx_whole t
  funext a; apply Fin.ext
  match a with
  | ⟨0, _⟩ => show win2_5.index t (0 : Fin 2) * 128 + 1 * (j 0).val = (j 0).val; omega
  | ⟨1, _⟩ => show win2_5.index t (1 : Fin 2) * 8 + 1 * (j 1).val = (j 1).val; omega

/-- The output bias row's block is the whole array at every point. -/
theorem blk_b2 (c : Dev nD) (t : Fin cfg2.N) : iblk2 V c 6 t = V c main_v63 := by
  funext j
  show V c main_v63 (((cfg2.win 6).blk t).view.emb j) = V c main_v63 j
  refine congrArg (V c main_v63) ?_
  obtain ⟨-, -, -, -, -, -, -, -, e0, e1⟩ := idx_whole t
  funext a; apply Fin.ext
  match a with
  | ⟨0, _⟩ => show win2_6.index t (0 : Fin 2) * 1 + 1 * (j 0).val = (j 0).val; omega
  | ⟨1, _⟩ => show win2_6.index t (1 : Fin 2) * 8 + 1 * (j 1).val = (j 1).val; omega

/-! ## What a point writes back, the cover, and the array after the region -/

/-- Entry (r, q) of the output's block at point t is entry (5000·t + r, q) of the array. -/
theorem emb_out (t : Fin cfg2.N) (r : Fin 5000) (q : Fin 8) (h : 5000 * t.val + r.val < 500000) :
    ((cfg2.win 7).blk t).view.emb (ix2 r q) = ix2 ⟨5000 * t.val + r.val, h⟩ q := by
  obtain ⟨-, -, -, -, e0, e1⟩ := idx_rows t
  funext a; apply Fin.ext
  match a with
  | ⟨0, _⟩ => show win2_7.index t (0 : Fin 2) * 5000 + 1 * r.val = 5000 * t.val + r.val; omega
  | ⟨1, _⟩ => show win2_7.index t (1 : Fin 2) * 8 + 1 * q.val = q.val; omega

/-- WHAT POINT t WRITES BACK is block t of the two-layer function of the arrays the region finds: the function is
    row-local, so rows 5000·t … 5000·t + 4999 of the result depend on the same rows of the two feature arrays only. -/
theorem writeback_eq (c : Dev nD) (t : Fin cfg2.N) :
    (dat2 (F := Ideal) V c).flushed 7 t = ((cfg2.win 7).blk t).view.read (Elt Ideal)
      (Cert.Spec.edge (V c main_v52) (V c main_v59) (V c main_v60) (V c main_v61) (V c main_v62) (V c main_arg9) (V c main_v63)) := by
  show (cfg2.win 7).cut (grid2.coords t) ((dat2 (F := Ideal) V c).after 7 t) = _
  rw [after2_7]
  unfold out2_7
  rw [View.canon_unit_zero origin_zero]
  simp only [View.ld_unit_zero (S := S5000x128) origin_zero, View.ld_unit_zero (S := S128x128) origin_zero,
    View.ld_unit_zero (S := S1x128) origin_zero, View.ld_unit_zero (S := S128x8) origin_zero, View.ld_unit_zero (S := S1x8) origin_zero]
  rw [blk_wa, blk_wb, blk_b1, blk_w2, blk_b2]
  have ht : t.val < 100 := lt_of_lt_of_eq t.isLt N_2
  funext j
  obtain ⟨r, q, rfl⟩ : ∃ (r : Fin 5000) (q : Fin 8), j = ix2 r q := ⟨j 0, j 1, eq_ix2 j⟩
  have hr : 5000 * t.val + r.val < 500000 := by have := r.isLt; omega
  show k2_pay1 (F := Ideal) (iblk2 V c 0 t) (iblk2 V c 1 t) (V c main_v60) (V c main_v61) (V c main_v62) (V c main_arg9)
      (V c main_v63) (ix2 r q)
    = Cert.Spec.edge (V c main_v52) (V c main_v59) (V c main_v60) (V c main_v61) (V c main_v62) (V c main_arg9) (V c main_v63)
      (((cfg2.win 7).blk t).view.emb (ix2 r q))
  rw [pay_apply, emb_out t r q hr, Cert.Spec.edge_apply]
  exact Cert.Spec.edgeAt_congr _ _ _ _ _ _ _ _ _ r ⟨5000 * t.val + r.val, hr⟩ q
    (fun k => blk_xs V c t r k hr) (fun k => blk_xd V c t r k hr)

/-- An index of the output array is in point t's block iff each coordinate is in the block's range on its axis. -/
theorem mem_block_iff (t : Fin cfg2.N) (i : S500000x8.Idx) :
    i ∈ ((cfg2.win 7).blk t).view.set ↔ ∀ a : Fin 2, win2_7.index t a * S5000x8.size a ≤ (i a).val
      ∧ (i a).val < win2_7.index t a * S5000x8.size a + S5000x8.size a := by
  show i ∈ ((View.whole main_v64).slice (win2_7.rect t)).set ↔ _
  rw [View.set_slice_whole, Rect.mem_set_unit]
  exact Iff.rfl

/-- Every row p of the output lies in the block of point p / 5000, and every point writes its block back. -/
theorem rows_covered (i : S500000x8.Idx) :
    ∃ t : Fin cfg2.N, (cfg2.win 7).flush t = true ∧ i ∈ ((cfg2.win 7).blk t).view.set := by
  have hi0 : (i 0).val < 500000 := (i 0).isLt
  have hi1 : (i 1).val < 8 := (i 1).isLt
  have hN : (i 0).val / 5000 < cfg2.N := by rw [show cfg2.N = 100 from N_2]; omega
  obtain ⟨-, -, -, -, e0, e1⟩ := idx_rows ⟨(i 0).val / 5000, hN⟩
  have e0' : win2_7.index ⟨(i 0).val / 5000, hN⟩ (0 : Fin 2) = (i 0).val / 5000 := e0
  refine ⟨⟨(i 0).val / 5000, hN⟩, flush2_7 _, ?_⟩
  rw [mem_block_iff]
  intro a
  match a with
  | ⟨0, _⟩ =>
    show win2_7.index ⟨(i 0).val / 5000, hN⟩ (0 : Fin 2) * 5000 ≤ (i 0).val
      ∧ (i 0).val < win2_7.index ⟨(i 0).val / 5000, hN⟩ (0 : Fin 2) * 5000 + 5000
    omega
  | ⟨1, _⟩ =>
    show win2_7.index ⟨(i 0).val / 5000, hN⟩ (1 : Fin 2) * 8 ≤ (i 1).val
      ∧ (i 1).val < win2_7.index ⟨(i 0).val / 5000, hN⟩ (1 : Fin 2) * 8 + 8
    omega

/-- THE OUTPUT ARRAY AFTER THE REGION is the two-layer function of the arrays the region finds: relu of the two
    end-point products plus the first bias, times the output weight, plus the output bias, row by row. -/
theorem final (c : Dev nD) :
    (dat2 (F := Ideal) V c).arrAt 7 cfg2.N
      = Cert.Spec.edge (V c main_v52) (V c main_v59) (V c main_v60) (V c main_v61) (V c main_v62) (V c main_arg9) (V c main_v63) :=
  (dat2 (F := Ideal) V c).arrAt_eq_of_cover 7 _ (fun t _ => writeback_eq V c t) rows_covered

end Cert.KernelIdeal.Region2

end
-- ==== Proof.Chain.lean ====
/-
  The kernel's program read from its launch to its return, one boundary at a time: after each stretch of host operations
  and after each of the three regions, what the buffers the later parts read hold, as KHost's functions of the launch
  arrays. A region's output array is its layer function of the region's entry contents (the three region modules); a
  buffer nothing has written since the launch still holds its launch contents.
-/
import proofs.«149534_j77025943486768_1_alg».proof.Proof.Gen.KernelIdeal.Frame
import proofs.«149534_j77025943486768_1_alg».proof.Proof.KHost
import proofs.«149534_j77025943486768_1_alg».proof.Proof.Region0Value
import proofs.«149534_j77025943486768_1_alg».proof.Proof.Region1Value
import proofs.«149534_j77025943486768_1_alg».proof.Proof.Region2Value
import Idealize.ShloMosaic.Lib.StableHlo.Run

set_option maxRecDepth 16384

noncomputable section

namespace Cert.KernelIdeal.Chain

open Cert.KernelIdeal Cert.KernelIdeal.Gen Cert.KernelIdeal.KHost
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch of host operations -/

set_option maxHeartbeats 4000000 in
theorem W1_v1 (c : Dev nD) : W1 (F := Ideal) m ρ c (Proc.devRef .tc main_v1) = edgeRow0 (m ((c : Thread nD τ).loc main_arg11)) := by
  unfold W1 hostOps0
  after_results_simp
  rfl

set_option maxHeartbeats 4000000 in
theorem W1_v3 (c : Dev nD) : W1 (F := Ideal) m ρ c (Proc.devRef .tc main_v3) = edgeRow1 (m ((c : Thread nD τ).loc main_arg11)) := by
  unfold W1 hostOps0
  after_results_simp
  rfl

set_option maxHeartbeats 4000000 in
theorem W1_v11 (c : Dev nD) : W1 (F := Ideal) m ρ c (Proc.devRef .tc main_v11) = inv (m ((c : Thread nD τ).loc main_arg11)) := by
  unfold W1 hostOps0
  after_results_simp
  rfl

set_option maxHeartbeats 4000000 in
theorem W1_v24 (c : Dev nD) : W1 (F := Ideal) m ρ c (Proc.devRef .tc main_v24)
    = mean (m ((c : Thread nD τ).loc main_arg0)) (m ((c : Thread nD τ).loc main_arg11)) := by
  unfold W1 hostOps0
  after_results_simp
  rfl

set_option maxHeartbeats 4000000 in
theorem W1_v25 (c : Dev nD) : W1 (F := Ideal) m ρ c (Proc.devRef .tc main_v25) = row128 (m ((c : Thread nD τ).loc main_arg2)) := by
  unfold W1 hostOps0
  after_results_simp
  rfl

/-- Reads a buffer no region and no host operation has written back to its launch contents, one boundary at a time. -/
macro "thread_back" : tactic => `(tactic| (
  repeat (first
    | (rw [W6_of_ne]; rotate_left; decide)
    | (rw [W4_of_ne]; rotate_left; decide)
    | (rw [W2_of_ne]; rotate_left; decide)
    | (unfold W5 hostOps2; after_results_simp)
    | (unfold W3 hostOps1; after_results_simp)
    | (unfold W1 hostOps0; after_results_simp))))

set_option maxHeartbeats 4000000 in
theorem W1_arg0 (c : Dev nD) : W1 (F := Ideal) m ρ c (Proc.devRef .tc main_arg0) = m ((c : Thread nD τ).loc main_arg0) := by
  thread_back
set_option maxHeartbeats 4000000 in
theorem W1_arg1 (c : Dev nD) : W1 (F := Ideal) m ρ c (Proc.devRef .tc main_arg1) = m ((c : Thread nD τ).loc main_arg1) := by
  thread_back
set_option maxHeartbeats 4000000 in
theorem W1_arg3 (c : Dev nD) : W1 (F := Ideal) m ρ c (Proc.devRef .tc main_arg3) = m ((c : Thread nD τ).loc main_arg3) := by
  thread_back

/-! ## After the first region -/

/-- The first region leaves the first layer's result in its output array. -/
theorem W2_v26 (c : Dev nD) : W2 (F := Ideal) m ρ c (Proc.devRef .tc main_v26)
    = layer0 (m ((c : Thread nD τ).loc main_arg0)) (m ((c : Thread nD τ).loc main_arg1)) (m ((c : Thread nD τ).loc main_arg2))
        (m ((c : Thread nD τ).loc main_arg3)) (m ((c : Thread nD τ).loc main_arg11)) := by
  refine (W2_arr m ρ c 5).trans ?_
  rw [Cert.KernelIdeal.Region0.final (V1 m ρ) c]
  show Cert.Spec.layer (W1 m ρ c (Proc.devRef .tc main_v24)) (W1 m ρ c (Proc.devRef .tc main_arg0)) (W1 m ρ c (Proc.devRef .tc main_arg1))
    (W1 m ρ c (Proc.devRef .tc main_arg3)) (W1 m ρ c (Proc.devRef .tc main_v25)) = _
  rw [W1_v24, W1_v25, W1_arg0, W1_arg1, W1_arg3]
  rfl

set_option maxHeartbeats 4000000 in
theorem W2_v1 (c : Dev nD) : W2 (F := Ideal) m ρ c (Proc.devRef .tc main_v1) = edgeRow0 (m ((c : Thread nD τ).loc main_arg11)) := by
  rw [W2_of_ne m ρ c main_v1 (by decide)]
  exact W1_v1 m ρ c
set_option maxHeartbeats 4000000 in
theorem W2_v3 (c : Dev nD) : W2 (F := Ideal) m ρ c (Proc.devRef .tc main_v3) = edgeRow1 (m ((c : Thread nD τ).loc main_arg11)) := by
  rw [W2_of_ne m ρ c main_v3 (by decide)]
  exact W1_v3 m ρ c
set_option maxHeartbeats 4000000 in
theorem W2_v11 (c : Dev nD) : W2 (F := Ideal) m ρ c (Proc.devRef .tc main_v11) = inv (m ((c : Thread nD τ).loc main_arg11)) := by
  rw [W2_of_ne m ρ c main_v11 (by decide)]
  exact W1_v11 m ρ c

/-! ## After the second stretch of host operations -/

set_option maxHeartbeats 4000000 in
/-- The second region's means are the means of the first layer's result over the same edges. -/
theorem W3_v39 (c : Dev nD) : W3 (F := Ideal) m ρ c (Proc.devRef .tc main_v39) = mean (layer0 (m ((c : Thread nD τ).loc main_arg0)) (m ((c : Thread nD τ).loc main_arg1)) (m ((c : Thread nD τ).loc main_arg2)) (m ((c : Thread nD τ).loc main_arg3)) (m ((c : Thread nD τ).loc main_arg11))) (m ((c : Thread nD τ).loc main_arg11)) := by
  unfold W3 hostOps1
  after_results_simp
  rw [W2_v26, W2_v1, W2_v3, W2_v11]
  rfl

set_option maxHeartbeats 4000000 in
theorem W3_v26 (c : Dev nD) : W3 (F := Ideal) m ρ c (Proc.devRef .tc main_v26) = (layer0 (m ((c : Thread nD τ).loc main_arg0)) (m ((c : Thread nD τ).loc main_arg1)) (m ((c : Thread nD τ).loc main_arg2)) (m ((c : Thread nD τ).loc main_arg3)) (m ((c : Thread nD τ).loc main_arg11))) := by
  unfold W3 hostOps1
  after_results_simp
  exact W2_v26 m ρ c

set_option maxHeartbeats 4000000 in
theorem W3_v40 (c : Dev nD) : W3 (F := Ideal) m ρ c (Proc.devRef .tc main_v40) = row128 (m ((c : Thread nD τ).loc main_arg5)) := by
  unfold W3 hostOps1
  after_results_simp
  thread_back
  rfl

set_option maxHeartbeats 4000000 in
theorem W3_arg4 (c : Dev nD) : W3 (F := Ideal) m ρ c (Proc.devRef .tc main_arg4) = m ((c : Thread nD τ).loc main_arg4) := by
  thread_back
set_option maxHeartbeats 4000000 in
theorem W3_arg6 (c : Dev nD) : W3 (F := Ideal) m ρ c (Proc.devRef .tc main_arg6) = m ((c : Thread nD τ).loc main_arg6) := by
  thread_back

/-! ## After the second region -/

/-- The second region leaves the second layer's result in its output array. -/
theorem W4_v41 (c : Dev nD) : W4 (F := Ideal) m ρ c (Proc.devRef .tc main_v41) = (layer1 (layer0 (m ((c : Thread nD τ).loc main_arg0)) (m ((c : Thread nD τ).loc main_arg1)) (m ((c : Thread nD τ).loc main_arg2)) (m ((c : Thread nD τ).loc main_arg3)) (m ((c : Thread nD τ).loc main_arg11))) (m ((c : Thread nD τ).loc main_arg4)) (m ((c : Thread nD τ).loc main_arg5)) (m ((c : Thread nD τ).loc main_arg6)) (m ((c : Thread nD τ).loc main_arg11))) := by
  refine (W4_arr m ρ c 5).trans ?_
  rw [Cert.KernelIdeal.Region1.final (V3 m ρ) c]
  show Cert.Spec.layer (W3 m ρ c (Proc.devRef .tc main_v39)) (W3 m ρ c (Proc.devRef .tc main_v26)) (W3 m ρ c (Proc.devRef .tc main_arg4))
    (W3 m ρ c (Proc.devRef .tc main_arg6)) (W3 m ρ c (Proc.devRef .tc main_v40)) = _
  rw [W3_v39, W3_v26, W3_v40, W3_arg4, W3_arg6]
  rfl

/-! ## After the third stretch of host operations -/

set_option maxHeartbeats 4000000 in
theorem W5_v52 (c : Dev nD) : W5 (F := Ideal) m ρ c (Proc.devRef .tc main_v52) = ends (layer1 (layer0 (m ((c : Thread nD τ).loc main_arg0)) (m ((c : Thread nD τ).loc main_arg1)) (m ((c : Thread nD τ).loc main_arg2)) (m ((c : Thread nD τ).loc main_arg3)) (m ((c : Thread nD τ).loc main_arg11))) (m ((c : Thread nD τ).loc main_arg4)) (m ((c : Thread nD τ).loc main_arg5)) (m ((c : Thread nD τ).loc main_arg6)) (m ((c : Thread nD τ).loc main_arg11))) (queryRow0 (m ((c : Thread nD τ).loc main_arg12))) := by
  unfold W5 hostOps2
  after_results_simp
  rw [W4_v41]
  thread_back
  rfl

set_option maxHeartbeats 4000000 in
theorem W5_v59 (c : Dev nD) : W5 (F := Ideal) m ρ c (Proc.devRef .tc main_v59) = ends (layer1 (layer0 (m ((c : Thread nD τ).loc main_arg0)) (m ((c : Thread nD τ).loc main_arg1)) (m ((c : Thread nD τ).loc main_arg2)) (m ((c : Thread nD τ).loc main_arg3)) (m ((c : Thread nD τ).loc main_arg11))) (m ((c : Thread nD τ).loc main_arg4)) (m ((c : Thread nD τ).loc main_arg5)) (m ((c : Thread nD τ).loc main_arg6)) (m ((c : Thread nD τ).loc main_arg11))) (queryRow1 (m ((c : Thread nD τ).loc main_arg12))) := by
  unfold W5 hostOps2
  after_results_simp
  rw [W4_v41]
  thread_back
  rfl

set_option maxHeartbeats 4000000 in
theorem W5_v60 (c : Dev nD) : W5 (F := Ideal) m ρ c (Proc.devRef .tc main_v60)
    = extractStridedSlice S128x128 ![0, 0] (m ((c : Thread nD τ).loc main_arg7)) slices_S256x128_S128x128_0_0 := by
  unfold W5 hostOps2
  after_results_simp
  thread_back

set_option maxHeartbeats 4000000 in
theorem W5_v61 (c : Dev nD) : W5 (F := Ideal) m ρ c (Proc.devRef .tc main_v61)
    = extractStridedSlice S128x128 ![128, 0] (m ((c : Thread nD τ).loc main_arg7)) slices_S256x128_S128x128_128_0 := by
  unfold W5 hostOps2
  after_results_simp
  thread_back

set_option maxHeartbeats 4000000 in
theorem W5_v62 (c : Dev nD) : W5 (F := Ideal) m ρ c (Proc.devRef .tc main_v62) = row128 (m ((c : Thread nD τ).loc main_arg8)) := by
  unfold W5 hostOps2
  after_results_simp
  thread_back
  rfl

set_option maxHeartbeats 4000000 in
theorem W5_v63 (c : Dev nD) : W5 (F := Ideal) m ρ c (Proc.devRef .tc main_v63) = row8 (m ((c : Thread nD τ).loc main_arg10)) := by
  unfold W5 hostOps2
  after_results_simp
  thread_back
  rfl

set_option maxHeartbeats 4000000 in
theorem W5_arg9 (c : Dev nD) : W5 (F := Ideal) m ρ c (Proc.devRef .tc main_arg9) = m ((c : Thread nD τ).loc main_arg9) := by
  thread_back

/-! ## After the third region -/

/-- The program's result array, after the run, is KHost's composition of the launch arrays. -/
theorem W6_v64 (c : Dev nD) : W6 (F := Ideal) m ρ c (Proc.devRef .tc main_v64)
    = out (layer1 (layer0 (m ((c : Thread nD τ).loc main_arg0)) (m ((c : Thread nD τ).loc main_arg1)) (m ((c : Thread nD τ).loc main_arg2)) (m ((c : Thread nD τ).loc main_arg3)) (m ((c : Thread nD τ).loc main_arg11))) (m ((c : Thread nD τ).loc main_arg4)) (m ((c : Thread nD τ).loc main_arg5)) (m ((c : Thread nD τ).loc main_arg6)) (m ((c : Thread nD τ).loc main_arg11))) (m ((c : Thread nD τ).loc main_arg7)) (m ((c : Thread nD τ).loc main_arg8)) (m ((c : Thread nD τ).loc main_arg9)) (m ((c : Thread nD τ).loc main_arg10)) (m ((c : Thread nD τ).loc main_arg12)) := by
  refine (W6_arr m ρ c 7).trans ?_
  rw [Cert.KernelIdeal.Region2.final (V5 m ρ) c]
  show Cert.Spec.edge (W5 m ρ c (Proc.devRef .tc main_v52)) (W5 m ρ c (Proc.devRef .tc main_v59)) (W5 m ρ c (Proc.devRef .tc main_v60))
    (W5 m ρ c (Proc.devRef .tc main_v61)) (W5 m ρ c (Proc.devRef .tc main_v62)) (W5 m ρ c (Proc.devRef .tc main_arg9))
    (W5 m ρ c (Proc.devRef .tc main_v63)) = _
  rw [W5_v52, W5_v59, W5_v60, W5_v61, W5_v62, W5_v63, W5_arg9]
  rfl

end Cert.KernelIdeal.Chain

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.RefSpec.lean ====
/-
  The reference program read as the functions of Spec.

  On the host a dense layer is written  max(((mean · wl) + b) + x · wr, 0)  with the bias repeated along the rows; over
  the extended reals addition is commutative and associative, so this is Spec.layer's  max((mean · wl + x · wr) + b, 0)
  entry by entry. The second layer applies the same operations to the first layer's result. The edge classifier joins the
  two gathered arrays along the columns and multiplies by the whole first weight matrix: the sum over the 256 joined
  columns is the sum over the first 128 against the matrix's upper half plus the sum over the last 128 against its
  lower half, which is Spec.edge.
-/
import proofs.«149534_j77025943486768_1_alg».proof.Proof.Gen.ReferenceIdeal.Read
import proofs.«149534_j77025943486768_1_alg».proof.Proof.Spec
import proofs.«149534_j77025943486768_1_alg».proof.Proof.LibMatmul
import proofs.«149534_j77025943486768_1_alg».proof.Proof.LibLayout
import Mathlib.Algebra.BigOperators.Fin
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefSpec

open Cert.ReferenceIdeal Cert.ReferenceIdeal.Read
open Idealize.ShloMosaic Idealize.ShloMosaic.TcCoe Idealize.ShloMosaic.ValueIdx

/-- A bias vector laid out as one row and repeated along the rows holds, at (p, q), the vector's entry q. -/
theorem biasRows_apply {α : Type} {A C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![A, C]⟩ ![0, 1]) (p : Fin A) (q : Fin C) :
    broadcastInDim ⟨2, ![A, C]⟩ ![0, 1] h2 (broadcastInDim ⟨2, ![1, C]⟩ ![1] h1 b) (ix2 p q) = b (ix1 q) := by
  have hq : q.val = if C = 1 then 0 else q.val := by
    split
    · have := q.isLt; omega
    · rfl
  refine (broadcastInDim_apply ![0, 1] h2 _ (ix2 p q) (ix2 (0 : Fin 1) q) (fun a => ?_)).trans
    (broadcastInDim_apply ![1] h1 b (ix2 (0 : Fin 1) q) (ix1 q) (fun a => ?_))
  · match a with
    | ⟨0, _⟩ => show (0 : Nat) = if (1 : Nat) = 1 then 0 else p.val; rw [if_pos rfl]
    | ⟨1, _⟩ => exact hq
  · match a with
    | ⟨0, _⟩ => exact hq

/-- One dense layer on the host, as an array: the product of the neighbours' means with the left weights, plus the
    bias rows, plus the product of the features with the right weights, rectified, is the layer function. The two
    sums differ only in where the bias is added, which commutes in the extended reals. -/
theorem hostLayer_eq {A K C : Nat} (mean x : FVec Ideal ⟨2, ![A, K]⟩ .f32) (wl wr : FVec Ideal ⟨2, ![K, C]⟩ .f32)
    (b : FVec Ideal ⟨1, ![C]⟩ .f32)
    (D : DotDims ⟨2, ![A, K]⟩ ⟨2, ![K, C]⟩ ⟨2, ![A, C]⟩) (hD : D = DotDims.plain A K C)
    (h1 : (⟨1, ![C]⟩ : Shape).BroadcastsInDim ⟨2, ![1, C]⟩ ![1])
    (h2 : (⟨2, ![1, C]⟩ : Shape).BroadcastsInDim ⟨2, ![A, C]⟩ ![0, 1])
    (h0 : (⟨0, ![]⟩ : Shape).BroadcastsInDim ⟨2, ![A, C]⟩ ![])
    (hc : (⟨1, ![C]⟩ : Shape).ShapeCasts ⟨2, ![1, C]⟩) :
    maximumf
        (addf
          (addf (Host.dotGeneral D none mean wl)
            (broadcastInDim ⟨2, ![A, C]⟩ ![0, 1] h2 (broadcastInDim ⟨2, ![1, C]⟩ ![1] h1 b)))
          (Host.dotGeneral D none x wr))
        (broadcastInDim ⟨2, ![A, C]⟩ ![] h0 (constant (F := Ideal) ⟨0, ![]⟩ .f32 0x00000000#32))
      = Cert.Spec.layer mean x wl wr (shapeCast ⟨2, ![1, C]⟩ b hc) := by
  subst hD
  funext i
  obtain ⟨p, q, rfl⟩ : ∃ p q, i = ix2 p q := ⟨i 0, i 1, eq_ix2 i⟩
  rw [Cert.Spec.layer_apply, maximumf_apply, addf_apply, addf_apply, biasRows_apply, broadcastInDim_scalar_apply,
    constant_apply, Ideal.ofBits_zero_f32]
  simp only [Host.dotGeneral]
  rw [Cert.Lib.Matmul.dotGeneral_apply, Cert.Lib.Matmul.dotGeneral_apply]
  unfold Cert.Spec.layerAt Cert.Spec.preAt
  rw [Cert.Lib.Layout.rowCast_apply, add_right_comm]

/-- A sum over the columns of two arrays joined along the columns, against a weight matrix, is the sum over the first
    array against the upper rows of the weights plus the sum over the second against the lower rows. -/
theorem joined_sum {A K H : Nat} (xs xd : (⟨2, ![A, K]⟩ : Shape).Idx → EReal)
    (w : (⟨2, ![K + K, H]⟩ : Shape).Idx → EReal)
    (hcat : Shape.Concatenates [(⟨2, ![A, K]⟩ : Shape), ⟨2, ![A, K]⟩] ⟨2, ![A, K + K]⟩ 1)
    (hs0 : (⟨2, ![K + K, H]⟩ : Shape).Slices ![0, 0] ⟨2, ![K, H]⟩)
    (hs1 : (⟨2, ![K + K, H]⟩ : Shape).Slices ![K, 0] ⟨2, ![K, H]⟩) (p : Fin A) (j : Fin H) :
    ∑ k : Fin (K + K), concatenate ⟨2, ![A, K + K]⟩ 1 [⟨⟨2, ![A, K]⟩, xs⟩, ⟨⟨2, ![A, K]⟩, xd⟩] hcat (ix2 p k) * w (ix2 k j)
      = ∑ k : Fin K, xs (ix2 p k) * extractStridedSlice ⟨2, ![K, H]⟩ ![0, 0] w hs0 (ix2 k j)
        + ∑ k : Fin K, xd (ix2 p k) * extractStridedSlice ⟨2, ![K, H]⟩ ![K, 0] w hs1 (ix2 k j) := by
  rw [Fin.sum_univ_add]
  congr 1
  · refine Finset.sum_congr rfl fun k _ => ?_
    rw [concatenate_pair_apply_left (1 : Fin 2) xs xd hcat (ix2 p (Fin.castAdd K k)) rfl (ix2 p k) (fun b => by
        match b with
        | ⟨0, _⟩ => rfl
        | ⟨1, _⟩ => rfl),
      extractStridedSlice_apply ![0, 0] w hs0 (ix2 k j) (ix2 (Fin.castAdd K k) j) (fun a => by
        match a with
        | ⟨0, _⟩ => show k.val = 0 + k.val; omega
        | ⟨1, _⟩ => show j.val = 0 + j.val; omega)]
  · refine Finset.sum_congr rfl fun k _ => ?_
    rw [concatenate_pair_apply_right (1 : Fin 2) xs xd hcat (ix2 p (Fin.natAdd K k)) rfl rfl (ix2 p k) (fun b hb => by
        match b, hb with
        | ⟨0, _⟩, _ => rfl
        | ⟨1, _⟩, hb => exact absurd rfl hb) (by show k.val + K = K + k.val; omega),
      extractStridedSlice_apply ![K, 0] w hs1 (ix2 k j) (ix2 (Fin.natAdd K k) j) (fun a => by
        match a with
        | ⟨0, _⟩ => show K + k.val = K + k.val; rfl
        | ⟨1, _⟩ => show j.val = 0 + j.val; omega)]

/-- The edge classifier on the host, as an array: the two end points' features joined along the columns, times the
    first weight matrix, plus bias rows, rectified, times the second weight matrix, plus bias rows, is the edge
    function of the two feature arrays and the two halves of the first weight matrix. -/
theorem hostEdge_eq {A K KK H C : Nat} (hKK : KK = K + K)
    (xs xd : FVec Ideal ⟨2, ![A, K]⟩ .f32) (w1 : FVec Ideal ⟨2, ![KK, H]⟩ .f32) (b1 : FVec Ideal ⟨1, ![H]⟩ .f32)
    (w2 : FVec Ideal ⟨2, ![H, C]⟩ .f32) (b2 : FVec Ideal ⟨1, ![C]⟩ .f32)
    (D1 : DotDims ⟨2, ![A, KK]⟩ ⟨2, ![KK, H]⟩ ⟨2, ![A, H]⟩) (hD1 : D1 = DotDims.plain A KK H)
    (D2 : DotDims ⟨2, ![A, H]⟩ ⟨2, ![H, C]⟩ ⟨2, ![A, C]⟩) (hD2 : D2 = DotDims.plain A H C)
    (hcat : Shape.Concatenates [(⟨2, ![A, K]⟩ : Shape), ⟨2, ![A, K]⟩] ⟨2, ![A, KK]⟩ 1)
    (h1 : (⟨1, ![H]⟩ : Shape).BroadcastsInDim ⟨2, ![1, H]⟩ ![1])
    (h2 : (⟨2, ![1, H]⟩ : Shape).BroadcastsInDim ⟨2, ![A, H]⟩ ![0, 1])
    (h0 : (⟨0, ![]⟩ : Shape).BroadcastsInDim ⟨2, ![A, H]⟩ ![])
    (h3 : (⟨1, ![C]⟩ : Shape).BroadcastsInDim ⟨2, ![1, C]⟩ ![1])
    (h4 : (⟨2, ![1, C]⟩ : Shape).BroadcastsInDim ⟨2, ![A, C]⟩ ![0, 1])
    (hc : (⟨1, ![H]⟩ : Shape).ShapeCasts ⟨2, ![1, H]⟩) (hc' : (⟨1, ![C]⟩ : Shape).ShapeCasts ⟨2, ![1, C]⟩)
    (hs0 : (⟨2, ![KK, H]⟩ : Shape).Slices ![0, 0] ⟨2, ![K, H]⟩)
    (hs1 : (⟨2, ![KK, H]⟩ : Shape).Slices ![K, 0] ⟨2, ![K, H]⟩) :
    addf
        (Host.dotGeneral D2 none
          (maximumf
            (addf
              (Host.dotGeneral D1 none
                (concatenate ⟨2, ![A, KK]⟩ 1 [⟨⟨2, ![A, K]⟩, xs⟩, ⟨⟨2, ![A, K]⟩, xd⟩] hcat) w1)
              (broadcastInDim ⟨2, ![A, H]⟩ ![0, 1] h2 (broadcastInDim ⟨2, ![1, H]⟩ ![1] h1 b1)))
            (broadcastInDim ⟨2, ![A, H]⟩ ![] h0 (constant (F := Ideal) ⟨0, ![]⟩ .f32 0x00000000#32)))
          w2)
        (broadcastInDim ⟨2, ![A, C]⟩ ![0, 1] h4 (broadcastInDim ⟨2, ![1, C]⟩ ![1] h3 b2))
      = Cert.Spec.edge xs xd (extractStridedSlice ⟨2, ![K, H]⟩ ![0, 0] w1 hs0)
          (extractStridedSlice ⟨2, ![K, H]⟩ ![K, 0] w1 hs1) (shapeCast ⟨2, ![1, H]⟩ b1 hc) w2
          (shapeCast ⟨2, ![1, C]⟩ b2 hc') := by
  subst hKK
  subst hD1
  subst hD2
  funext i
  obtain ⟨p, q, rfl⟩ : ∃ p q, i = ix2 p q := ⟨i 0, i 1, eq_ix2 i⟩
  rw [Cert.Spec.edge_apply, addf_apply, biasRows_apply]
  simp only [Host.dotGeneral]
  rw [Cert.Lib.Matmul.dotGeneral_apply]
  unfold Cert.Spec.edgeAt
  rw [Cert.Lib.Layout.rowCast_apply]
  congr 1
  refine Finset.sum_congr rfl fun j _ => ?_
  congr 1
  rw [maximumf_apply, addf_apply, biasRows_apply, broadcastInDim_scalar_apply, constant_apply,
    Ideal.ofBits_zero_f32, Cert.Lib.Matmul.dotGeneral_apply, joined_sum xs xd w1 hcat hs0 hs1 p j]
  unfold Cert.Spec.layerAt Cert.Spec.preAt
  rw [Cert.Lib.Layout.rowCast_apply]

/-- The second layer's row indices, read from the edge list, are the first layer's: the same operations on the same
    edge list. -/
theorem rows_eq (e : (⟨S2x1600000, .i32⟩ : BufTy).Contents (Elt Ideal)) : val_main_v35 (F := Ideal) e = val_main_v9 (F := Ideal) e := rfl

/-- The second layer's divisor (the in-degree, at least one, repeated along the columns) is the first layer's. -/
theorem degree_eq (e : (⟨S2x1600000, .i32⟩ : BufTy).Contents (Elt Ideal)) : val_main_v47 (F := Ideal) e = val_main_v21 (F := Ideal) e := rfl

/-- The second layer's gathered rows are the first layer's gather applied to the first layer's result. -/
theorem gathered_eq (x0 : FVec Ideal S100000x128 .f32) (x1 : FVec Ideal S128x128 .f32) (x2 : FVec Ideal S128 .f32)
    (x3 : FVec Ideal S128x128 .f32) (e : (⟨S2x1600000, .i32⟩ : BufTy).Contents (Elt Ideal)) :
    val_main_v36 (F := Ideal) x0 x1 x2 x3 e
      = val_main_v10 (F := Ideal) (val_main_v29 (F := Ideal) x0 x1 x2 x3 e) e := by
  unfold val_main_v36 val_main_v10
  rw [rows_eq]

/-- The second layer's neighbour sums are the first layer's scatter-add applied to the first layer's result. -/
theorem summed_eq (x0 : FVec Ideal S100000x128 .f32) (x1 : FVec Ideal S128x128 .f32) (x2 : FVec Ideal S128 .f32)
    (x3 : FVec Ideal S128x128 .f32) (e : (⟨S2x1600000, .i32⟩ : BufTy).Contents (Elt Ideal)) :
    val_main_v39 (F := Ideal) x0 x1 x2 x3 e
      = val_main_v13 (F := Ideal) (val_main_v29 (F := Ideal) x0 x1 x2 x3 e) e := by
  unfold val_main_v39 val_main_v13
  rw [gathered_eq]
  rfl

/-- The second layer's neighbour means are the first layer's mean operation applied to the first layer's result. -/
theorem mean1_eq (x0 : FVec Ideal S100000x128 .f32) (x1 : FVec Ideal S128x128 .f32) (x2 : FVec Ideal S128 .f32)
    (x3 : FVec Ideal S128x128 .f32) (e : (⟨S2x1600000, .i32⟩ : BufTy).Contents (Elt Ideal)) :
    val_main_v48 (F := Ideal) x0 x1 x2 x3 e
      = val_main_v22 (F := Ideal) (val_main_v29 (F := Ideal) x0 x1 x2 x3 e) e := by
  unfold val_main_v48 val_main_v22
  rw [summed_eq, degree_eq]

/-- The first layer of the reference: the layer function of the divided neighbour sums (val_main_v22), the features,
    the two weight matrices and the bias laid out as one row. -/
theorem layer0_eq (x0 : FVec Ideal S100000x128 .f32) (x1 : FVec Ideal S128x128 .f32) (x2 : FVec Ideal S128 .f32)
    (x3 : FVec Ideal S128x128 .f32) (e : (⟨S2x1600000, .i32⟩ : BufTy).Contents (Elt Ideal)) (hc : S128.ShapeCasts S1x128) :
    val_main_v29 (F := Ideal) x0 x1 x2 x3 e
      = Cert.Spec.layer (val_main_v22 (F := Ideal) x0 e) x0 x1 x3 (shapeCast S1x128 x2 hc) := by
  unfold val_main_v29 val_main_v28 val_main_v26 val_main_v27 val_main_v23 val_main_v25 val_main_v24 val_main_call0_v0
    val_main_call0_cst
  exact hostLayer_eq (val_main_v22 (F := Ideal) x0 e) x0 x1 x3 x2 dot_S100000x128_S128x128_S100000x128_1_0_0_1_n_n rfl _ _ _ hc

/-- The second layer of the reference is the same function of the first layer's result y = val_main_v29 …: its
    neighbour means are val_main_v22 of y. -/
theorem layer1_eq (x0 : FVec Ideal S100000x128 .f32) (x1 : FVec Ideal S128x128 .f32) (x2 : FVec Ideal S128 .f32)
    (x3 x4 : FVec Ideal S128x128 .f32) (x5 : FVec Ideal S128 .f32) (x6 : FVec Ideal S128x128 .f32)
    (e : (⟨S2x1600000, .i32⟩ : BufTy).Contents (Elt Ideal)) (hc : S128.ShapeCasts S1x128) :
    val_main_v55 (F := Ideal) x0 x1 x2 x3 x4 x5 x6 e
      = Cert.Spec.layer (val_main_v22 (F := Ideal) (val_main_v29 (F := Ideal) x0 x1 x2 x3 e) e)
          (val_main_v29 (F := Ideal) x0 x1 x2 x3 e) x4 x6 (shapeCast S1x128 x5 hc) := by
  unfold val_main_v55 val_main_v54 val_main_v52 val_main_v53 val_main_v49 val_main_v51 val_main_v50 val_main_call1_v0
    val_main_call1_cst
  rw [mean1_eq]
  exact hostLayer_eq (val_main_v22 (F := Ideal) (val_main_v29 (F := Ideal) x0 x1 x2 x3 e) e)
    (val_main_v29 (F := Ideal) x0 x1 x2 x3 e) x4 x6 x5 dot_S100000x128_S128x128_S100000x128_1_0_0_1_n_n rfl _ _ _ hc

/-- The reference's result: the edge classifier of the two gathered end-point feature arrays (val_main_v66,
    val_main_v73), the two halves of the first weight matrix, and the biases laid out as rows. -/
theorem out_eq (x0 : FVec Ideal S100000x128 .f32) (x1 : FVec Ideal S128x128 .f32) (x2 : FVec Ideal S128 .f32)
    (x3 x4 : FVec Ideal S128x128 .f32) (x5 : FVec Ideal S128 .f32) (x6 : FVec Ideal S128x128 .f32)
    (x7 : FVec Ideal S256x128 .f32) (x8 : FVec Ideal S128 .f32) (x9 : FVec Ideal S128x8 .f32) (x10 : FVec Ideal S8 .f32)
    (e : (⟨S2x1600000, .i32⟩ : BufTy).Contents (Elt Ideal)) (q : (⟨S2x500000, .i32⟩ : BufTy).Contents (Elt Ideal))
    (hc : S128.ShapeCasts S1x128) (hc8 : S8.ShapeCasts S1x8)
    (hs0 : S256x128.Slices ![0, 0] S128x128) (hs1 : S256x128.Slices ![128, 0] S128x128) :
    val_main_v83 (F := Ideal) x0 x1 x2 x3 x4 x5 x6 x7 x8 x9 x10 e q
      = Cert.Spec.edge (val_main_v66 (F := Ideal) x0 x1 x2 x3 x4 x5 x6 e q) (val_main_v73 (F := Ideal) x0 x1 x2 x3 x4 x5 x6 e q)
          (extractStridedSlice S128x128 ![0, 0] x7 hs0) (extractStridedSlice S128x128 ![128, 0] x7 hs1)
          (shapeCast S1x128 x8 hc) x9 (shapeCast S1x8 x10 hc8) := by
  unfold val_main_v83 val_main_v82 val_main_v81 val_main_v80 val_main_v79 val_main_v78 val_main_v77 val_main_v76
    val_main_v75 val_main_v74 val_main_call2_v0 val_main_call2_cst
  exact hostEdge_eq (K := 128) rfl (val_main_v66 (F := Ideal) x0 x1 x2 x3 x4 x5 x6 e q)
    (val_main_v73 (F := Ideal) x0 x1 x2 x3 x4 x5 x6 e q) x7 x8 x9 x10
    dot_S500000x256_S256x128_S500000x128_1_0_0_1_n_n rfl dot_S500000x128_S128x8_S500000x8_1_0_0_1_n_n rfl
    _ _ _ _ _ _ hc hc8 hs0 hs1

end Cert.ReferenceIdeal.RefSpec

end
-- ==== Proof.LibRecipMean.lean ====
/-
  A mean taken by multiplying with a reciprocal is the mean taken by dividing (a general lemma: nothing here depends on
  a program; any sizes).

  For a matrix S : [A, B] of row sums and a vector g : [A] of counts, let d = max(g, 1) entry by entry. One program
  forms the vector 1 / d first and multiplies row a of S by its entry a; another divides row a of S by d[a]. On the
  extended reals the quotient by a nonzero d is the product with d⁻¹ whatever the numerator (the infinities included),
  and d ≥ 1 is never zero, so  y · (1 · d⁻¹) = y · d⁻¹  and the two arrays are equal, with no condition on S or g.
  Both are read here in the host's spelling: the vector broadcast to a column and the column across the row, the ones
  broadcast scalars.
-/
import Idealize.ShloMosaic.Lib.ValueIdx
import Idealize.ShloMosaic.Lib.IdealHost
import Idealize.ShloMosaic.Lib.Pipeline.Value
import Idealize.ShloMosaic.PureOps.Ideal.Laws

noncomputable section

namespace Cert.Lib.RecipMean

open Idealize.ShloMosaic Idealize.ShloMosaic.ValueIdx

/-- y · (1 / max(g, 1)) = y / max(g, 1) on the extended reals: the divisor is at least one, so it is not zero, and the
    quotient by it is the product with its inverse on both sides. -/
theorem mul_recip_max (y g : EReal) : y * Ideal.div 1 (max g 1) = Ideal.div y (max g 1) := by
  have hpos : (0 : EReal) < max g 1 := lt_of_lt_of_le zero_lt_one (le_max_right g 1)
  have hne : max g 1 ≠ 0 := ne_of_gt hpos
  unfold Ideal.div
  rw [if_neg hne, if_neg hne, one_mul]

variable {A B : Nat}

/-- A vector broadcast to a column and the column across the row, at (a, b), is the vector at a. -/
theorem colBcast_apply (v : (⟨1, ![A]⟩ : Shape).Idx → EReal)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h2
        (broadcastInDim ⟨2, ![A, 1]⟩ (![0] : Fin 1 → Fin 2) h1 v) (ix2 a b) = v (ix1 a) := by
  refine (broadcastInDim_apply (![0, 1] : Fin 2 → Fin 2) h2 _ (ix2 a b) (ix2 a (0 : Fin 1)) ?_).trans
    (broadcastInDim_apply (![0] : Fin 1 → Fin 2) h1 v (ix2 a (0 : Fin 1)) (ix1 a) ?_)
  · intro d
    match d with
    | ⟨0, _⟩ =>
      show a.val = if A = 1 then 0 else a.val
      split
      · have := a.isLt; omega
      · rfl
    | ⟨1, _⟩ => simp
  · intro d
    match d with
    | ⟨0, _⟩ =>
      show a.val = if A = 1 then 0 else a.val
      split
      · have := a.isLt; omega
      · rfl

/-- The rows of S times the reciprocals of max(g, 1) are the rows of S divided by max(g, 1). -/
theorem recipMean_eq (S : FVec Ideal ⟨2, ![A, B]⟩ .f32) (g : FVec Ideal ⟨1, ![A]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) :
    mulf S
      (broadcastInDim ⟨2, ![A, B]⟩ (![0, 1] : Fin 2 → Fin 2) h2
        (broadcastInDim ⟨2, ![A, 1]⟩ (![0] : Fin 1 → Fin 2) h1
          (Host.divf (broadcastInDim ⟨1, ![A]⟩ (![] : Fin 0 → Fin 1) h0 (constant (F := Ideal) ⟨0, ![]⟩ .f32 0x3F800000#32))
            (maximumf g (broadcastInDim ⟨1, ![A]⟩ (![] : Fin 0 → Fin 1) h0 (constant (F := Ideal) ⟨0, ![]⟩ .f32 0x3F800000#32))))))
    = Host.divf S
      (broadcastInDim ⟨2, ![A, B]⟩ (![0, 1] : Fin 2 → Fin 2) h2
        (broadcastInDim ⟨2, ![A, 1]⟩ (![0] : Fin 1 → Fin 2) h1
          (maximumf g (broadcastInDim ⟨1, ![A]⟩ (![] : Fin 0 → Fin 1) h0 (constant (F := Ideal) ⟨0, ![]⟩ .f32 0x3F800000#32))))) := by
  funext i
  obtain ⟨a, b, rfl⟩ : ∃ (a : Fin A) (b : Fin B), i = ix2 a b := ⟨i 0, i 1, eq_ix2 i⟩
  rw [mulf_apply, hostDivf_apply, colBcast_apply, colBcast_apply, hostDivf_apply, maximumf_apply,
    broadcastInDim_scalar_apply, constant_apply, Ideal.ofBits_one_f32]
  exact mul_recip_max _ _

end Cert.Lib.RecipMean

end
-- ==== Proof.Bridge.lean ====
/-
  The kernel program's value and the reference's value are one function of the launch arrays.

  The two programs apply the same gathers, scatter-adds and index arithmetic to the edge and query lists, so those parts
  agree term by term. They differ in the mean: the kernel's program multiplies the neighbour sums by 1 / max(deg, 1), the
  reference divides them by max(deg, 1); on the extended reals the quotient by a divisor that is at least one is the
  product with its inverse whatever the numerator, so the means are equal. The dense layers and the edge classifier are
  then the same Spec functions of equal operands.
-/
import proofs.«149534_j77025943486768_1_alg».proof.Proof.KHost
import proofs.«149534_j77025943486768_1_alg».proof.Proof.RefSpec
import proofs.«149534_j77025943486768_1_alg».proof.Proof.LibRecipMean

noncomputable section

namespace Cert.Bridge

open Idealize.ShloMosaic Idealize.ShloMosaic.TcCoe
open Cert.KernelIdeal.KHost
open Cert.ReferenceIdeal.Read

/-- The destinations' index column is the reference's: the same operations on the same edge list. -/
theorem dstCol_eq (e : Edges) : dstCol e = val_main_v12 (F := Ideal) e := rfl

/-- The same column, as the reference spells it for the degree count. -/
theorem dstCol_eq' (e : Edges) : dstCol e = val_main_v16 (F := Ideal) e := rfl

/-- The sources' index column, negative entries counted from the end, is the reference's. -/
theorem srcCol_eq (e : Edges) : wrapE (edgeRow0 e) = val_main_v9 (F := Ideal) e := rfl

set_option maxHeartbeats 400000 in
/-- The neighbour sums are the reference's scatter-add of its gathered rows: the two programs' dimension records
    have the same fields. -/
theorem agg_eq (x : Nodes) (e : Edges) : agg x e = val_main_v13 (F := Ideal) x e := by
  unfold agg val_main_v13 val_main_v10 val_main_v11 val_main_cst
  rw [dstCol_eq, srcCol_eq]
  rfl

set_option maxHeartbeats 400000 in
/-- The in-degrees are the reference's scatter-add of ones. -/
theorem deg_eq (e : Edges) : deg e = val_main_v17 (F := Ideal) e := by
  unfold deg val_main_v17 val_main_v15 val_main_v14 val_main_cst_2 val_main_cst_1
  rw [dstCol_eq']
  rfl

/-- The query edges' first end points, as an index column, are the reference's. -/
theorem endCol0_eq (q : Queries) : wrapQ (queryRow0 q) = val_main_v65 (F := Ideal) q := rfl

/-- The query edges' second end points, as an index column, are the reference's. -/
theorem endCol1_eq (q : Queries) : wrapQ (queryRow1 q) = val_main_v72 (F := Ideal) q := rfl

/-- The mean formed by multiplying with the reciprocal degree is the reference's divided neighbour sum. -/
theorem mean_eq (x : Nodes) (e : Edges) : mean x e = val_main_v22 (F := Ideal) x e := by
  unfold mean spread Cert.KernelIdeal.KHost.inv val_main_v22 val_main_v21 val_main_v20 val_main_v19 val_main_v18 val_main_cst_3
  rw [agg_eq, deg_eq]
  exact Cert.Lib.RecipMean.recipMean_eq (val_main_v13 (F := Ideal) x e) (val_main_v17 (F := Ideal) e) _ _ _

theorem layer0_eq (x0 : Nodes) (x1 : FVec Ideal Cert.KernelIdeal.S128x128 .f32) (x2 : FVec Ideal Cert.KernelIdeal.S128 .f32)
    (x3 : FVec Ideal Cert.KernelIdeal.S128x128 .f32) (e : Edges) :
    layer0 x0 x1 x2 x3 e = val_main_v29 (F := Ideal) x0 x1 x2 x3 e := by
  unfold layer0 row128
  rw [mean_eq]
  exact (Cert.ReferenceIdeal.RefSpec.layer0_eq x0 x1 x2 x3 e _).symm

theorem layer1_eq (x0 : Nodes) (x1 : FVec Ideal Cert.KernelIdeal.S128x128 .f32) (x2 : FVec Ideal Cert.KernelIdeal.S128 .f32)
    (x3 x4 : FVec Ideal Cert.KernelIdeal.S128x128 .f32) (x5 : FVec Ideal Cert.KernelIdeal.S128 .f32)
    (x6 : FVec Ideal Cert.KernelIdeal.S128x128 .f32) (e : Edges) :
    layer1 (val_main_v29 (F := Ideal) x0 x1 x2 x3 e) x4 x5 x6 e = val_main_v55 (F := Ideal) x0 x1 x2 x3 x4 x5 x6 e := by
  unfold layer1 row128
  rw [mean_eq]
  exact (Cert.ReferenceIdeal.RefSpec.layer1_eq x0 x1 x2 x3 x4 x5 x6 e _).symm

set_option maxHeartbeats 400000 in
/-- The second layer's rows at the first end points are the reference's gathered rows. -/
theorem ends0_eq (x0 : Nodes) (x1 : FVec Ideal Cert.KernelIdeal.S128x128 .f32) (x2 : FVec Ideal Cert.KernelIdeal.S128 .f32)
    (x3 x4 : FVec Ideal Cert.KernelIdeal.S128x128 .f32) (x5 : FVec Ideal Cert.KernelIdeal.S128 .f32)
    (x6 : FVec Ideal Cert.KernelIdeal.S128x128 .f32) (e : Edges) (q : Queries) :
    ends (val_main_v55 (F := Ideal) x0 x1 x2 x3 x4 x5 x6 e) (queryRow0 q)
      = val_main_v66 (F := Ideal) x0 x1 x2 x3 x4 x5 x6 e q := by
  unfold ends val_main_v66
  rw [endCol0_eq]
  rfl

set_option maxHeartbeats 400000 in
/-- The second layer's rows at the second end points are the reference's gathered rows. -/
theorem ends1_eq (x0 : Nodes) (x1 : FVec Ideal Cert.KernelIdeal.S128x128 .f32) (x2 : FVec Ideal Cert.KernelIdeal.S128 .f32)
    (x3 x4 : FVec Ideal Cert.KernelIdeal.S128x128 .f32) (x5 : FVec Ideal Cert.KernelIdeal.S128 .f32)
    (x6 : FVec Ideal Cert.KernelIdeal.S128x128 .f32) (e : Edges) (q : Queries) :
    ends (val_main_v55 (F := Ideal) x0 x1 x2 x3 x4 x5 x6 e) (queryRow1 q)
      = val_main_v73 (F := Ideal) x0 x1 x2 x3 x4 x5 x6 e q := by
  unfold ends val_main_v73
  rw [endCol1_eq]
  rfl

theorem out_eq (x0 : Nodes) (x1 : FVec Ideal Cert.KernelIdeal.S128x128 .f32) (x2 : FVec Ideal Cert.KernelIdeal.S128 .f32)
    (x3 x4 : FVec Ideal Cert.KernelIdeal.S128x128 .f32) (x5 : FVec Ideal Cert.KernelIdeal.S128 .f32)
    (x6 : FVec Ideal Cert.KernelIdeal.S128x128 .f32) (x7 : FVec Ideal Cert.KernelIdeal.S256x128 .f32)
    (x8 : FVec Ideal Cert.KernelIdeal.S128 .f32) (x9 : FVec Ideal Cert.KernelIdeal.S128x8 .f32)
    (x10 : FVec Ideal Cert.KernelIdeal.S8 .f32) (e : Edges) (q : Queries) :
    out (val_main_v55 (F := Ideal) x0 x1 x2 x3 x4 x5 x6 e) x7 x8 x9 x10 q
      = val_main_v83 (F := Ideal) x0 x1 x2 x3 x4 x5 x6 x7 x8 x9 x10 e q := by
  unfold out row128 row8
  rw [ends0_eq, ends1_eq]
  exact (Cert.ReferenceIdeal.RefSpec.out_eq x0 x1 x2 x3 x4 x5 x6 x7 x8 x9 x10 e q _ _ _ _).symm

/-- The kernel program's result, as the composition of KHost's functions, is the reference's result. -/
theorem result_eq (x0 : Nodes) (x1 : FVec Ideal Cert.KernelIdeal.S128x128 .f32) (x2 : FVec Ideal Cert.KernelIdeal.S128 .f32)
    (x3 x4 : FVec Ideal Cert.KernelIdeal.S128x128 .f32) (x5 : FVec Ideal Cert.KernelIdeal.S128 .f32)
    (x6 : FVec Ideal Cert.KernelIdeal.S128x128 .f32) (x7 : FVec Ideal Cert.KernelIdeal.S256x128 .f32)
    (x8 : FVec Ideal Cert.KernelIdeal.S128 .f32) (x9 : FVec Ideal Cert.KernelIdeal.S128x8 .f32)
    (x10 : FVec Ideal Cert.KernelIdeal.S8 .f32) (e : Edges) (q : Queries) :
    out (layer1 (layer0 x0 x1 x2 x3 e) x4 x5 x6 e) x7 x8 x9 x10 q
      = val_main_v83 (F := Ideal) x0 x1 x2 x3 x4 x5 x6 x7 x8 x9 x10 e q := by
  rw [layer0_eq, layer1_eq, out_eq]

end Cert.Bridge

end
-- ==== Proof.lean ====
/-
  The certificate of a two-layer mean-aggregating graph network with an edge classifier.

  The kernel's program computes, on the host, the neighbour sums of the node features over an edge list (a gather of
  the source rows scatter-added at the destinations), the in-degrees, and the reciprocal 1 / max(deg, 1); it multiplies
  the sums by the reciprocal to get the neighbours' mean, and a first region forms, block of rows by block of rows,
  max((mean · wl + x · wr) + b, 0). A second stretch and region do the same from the first layer's result. A last stretch
  gathers the second layer's rows at the two end points of every query edge, cuts the first classifier matrix into its
  upper and lower halves, and a third region forms max((xs · wa + xd · wb) + b1, 0) · w2 + b2.
  The reference divides the sums by max(deg, 1), adds the bias before the second product, joins the two gathered arrays
  along the columns and multiplies by the whole first matrix. Over the extended reals: a quotient by a nonzero divisor is
  the product with its inverse whatever the numerator, and max(deg, 1) is at least one, so the two means are equal;
  addition is commutative and associative, so the bias may be added in either place; and a sum over 256 joined columns
  is the sum over the first 128 plus the sum over the last 128. None of these steps needs the inputs to be finite.

  The three frames are the generated ones (the reference's is its generated run with the result dropped); the pass that
  printed the idealized kernel rewrote nothing, so that conjunct is trivial. For the value claim the kernel program's
  run is read boundary by boundary (Chain) down to one composition of whole-array functions of the launch arrays
  (KHost, Spec), the reference's run is read operation by operation (RefSpec), and Bridge joins the two.
-/
import proofs.«149534_j77025943486768_1_alg».proof.Defs
import proofs.«149534_j77025943486768_1_alg».proof.Proof.Gen.Kernel
import proofs.«149534_j77025943486768_1_alg».proof.Proof.Gen.Kernel.Skeleton
import proofs.«149534_j77025943486768_1_alg».proof.Proof.Gen.Kernel.Launch
import proofs.«149534_j77025943486768_1_alg».proof.Proof.Gen.Kernel.Points
import proofs.«149534_j77025943486768_1_alg».proof.Proof.Gen.Kernel.Frame
import proofs.«149534_j77025943486768_1_alg».proof.Proof.Gen.KernelIdeal
import proofs.«149534_j77025943486768_1_alg».proof.Proof.Gen.KernelIdeal.Skeleton
import proofs.«149534_j77025943486768_1_alg».proof.Proof.Gen.KernelIdeal.Launch
import proofs.«149534_j77025943486768_1_alg».proof.Proof.Gen.KernelIdeal.Points
import proofs.«149534_j77025943486768_1_alg».proof.Proof.Gen.KernelIdeal.Frame
import proofs.«149534_j77025943486768_1_alg».proof.Proof.Gen.ReferenceIdeal
import proofs.«149534_j77025943486768_1_alg».proof.Proof.Gen.Pre_finite_inputs
import proofs.«149534_j77025943486768_1_alg».proof.Proof.Gen.ReferenceIdeal.Run
import proofs.«149534_j77025943486768_1_alg».proof.Proof.Gen.ReferenceIdeal.Read
import proofs.«149534_j77025943486768_1_alg».proof.Proof.KernelRun
import proofs.«149534_j77025943486768_1_alg».proof.Proof.Chain
import proofs.«149534_j77025943486768_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Both programs end with the reference's composed value of the launch arrays in their result: the kernel's program by
    its run read boundary by boundary and joined to the reference's value, the reference by its generated run. -/
theorem algebraic : Cert.algebraic_KernelIdeal_ReferenceIdeal := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunValue.run (F := Ideal) m ρ)
    exact (Cert.KernelIdeal.Chain.W6_v64 m ρ c).trans (Cert.Bridge.result_eq _ _ _ _ _ _ _ _ _ _ _ _ _)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v83_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
